-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S800000x4 : Shape := ⟨2, ![800000, 4]⟩
abbrev S800000 : Shape := ⟨1, ![800000]⟩
abbrev S96x96 : Shape := ⟨2, ![96, 96]⟩
abbrev S96 : Shape := ⟨1, ![96]⟩
abbrev S192x96 : Shape := ⟨2, ![192, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S800000x4 : S_.BroadcastsInDim S800000x4 (![] : Fin 0 → Fin S800000x4.rank)
  reducesTo_S800000x4_S_d0_1 : S800000x4.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S192x96 : S_.BroadcastsInDim S192x96 (![] : Fin 0 → Fin S192x96.rank)
  reducesTo_S192x96_S_d0_1 : S192x96.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg4 : IVec S800000 32) (main_v48 : IVec S_ 1) (main_v50 : IVec S800000 1) : IVec S_ 1 :=
  let main_c_19 : IVec S_ 32 := constantI S_ 32 50000#32
  let main_v51 : IVec S800000 32 := broadcastInDim S800000 ![] bcast_S_S800000 main_c_19
  let main_v52 : IVec S800000 1 := cmpi .slt main_arg4 main_v51
  let main_v53 : IVec S800000 1 := andi main_v50 main_v52
  let main_c_20 : IVec S_ 1 := constantI S_ 1 1#1
  let main_v54 : IVec S_ 1 := (fun x v => Host.reduce IntOp.andi x v reducesTo_S800000_S_d0 h_S_) main_v53 main_c_20
  let main_v55 : IVec S_ 1 := andi main_v48 main_v54
  main_v55

def fn_part2 {F : FTy → Type} [FloatOps F] (main_arg4 : IVec S800000 32) (main_arg9 : FVec F S96 .f32) (main_arg10 : FVec F S192x96 .f32) (main_arg11 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S192x96 .f32 := Host.absf main_arg10
  let main_cst_14 : FVec F S_ .f32 := constant S_ .f32 0x7F800000#32
  let main_v40 : FVec F S192x96 .f32 := broadcastInDim S192x96 ![] bcast_S_S192x96 main_cst_14
  let main_v41 : IVec S192x96 1 := cmpf .olt main_v39 main_v40
  let main_c_15 : IVec S_ 1 := constantI S_ 1 1#1
  let main_v42 : IVec S_ 1 := (fun x v => Host.reduce IntOp.andi x v reducesTo_S192x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_c_18 : IVec S_ 32 := constantI S_ 32 4294917296#32
  let main_v49 : IVec S800000 32 := broadcastInDim S800000 ![] bcast_S_S800000 main_c_18
  let main_v50 : IVec S800000 1 := cmpi .sge main_arg4 main_v49
  fn_part3 (F := F) main_arg4 main_v48 main_v50

def fn_part1 {F : FTy → Type} [FloatOps F] (main_arg4 : IVec S800000 32) (main_arg6 : FVec F S96x96 .f32) (main_arg7 : FVec F S96 .f32) (main_arg8 : FVec F S96x96 .f32) (main_arg9 : FVec F S96 .f32) (main_arg10 : FVec F S192x96 .f32) (main_arg11 : FVec F S96 .f32) (main_v13 : IVec S_ 1) (main_v16 : IVec S800000x4 1) : IVec S_ 1 :=
  let main_c_5 : IVec S_ 1 := constantI S_ 1 1#1
  let main_v17 : IVec S_ 1 := (fun x v => Host.reduce IntOp.andi x v reducesTo_S800000x4_S_d0_1 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg4 main_arg9 main_arg10 main_arg11 main_v33

def fn {F : FTy → Type} [FloatOps F] (main_arg0 : FVec F S50000x96 .f32) (main_arg1 : FVec F S50000x96 .f32) (main_arg2 : FVec F S800000x96 .f32) (main_arg3 : FVec F S800000x4 .f32) (main_arg4 : IVec S800000 32) (main_arg5 : IVec S800000 32) (main_arg6 : FVec F S96x96 .f32) (main_arg7 : FVec F S96 .f32) (main_arg8 : FVec F S96x96 .f32) (main_arg9 : FVec F S96 .f32) (main_arg10 : FVec F S192x96 .f32) (main_arg11 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x96 .f32 := Host.absf main_arg1
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S800000x96 .f32 := Host.absf main_arg2
  let main_cst_2 : FVec F S_ .f32 := constant S_ .f32 0x7F800000#32
  let main_v10 : FVec F S800000x96 .f32 := broadcastInDim S800000x96 ![] bcast_S_S800000x96 main_cst_2
  let main_v11 : IVec S800000x96 1 := cmpf .olt main_v9 main_v10
  let main_c_3 : IVec S_ 1 := constantI S_ 1 1#1
  let main_v12 : IVec S_ 1 := (fun x v => Host.reduce IntOp.andi x v reducesTo_S800000x96_S_d0_1 h_S_) main_v11 main_c_3
  let main_v13 : IVec S_ 1 := andi main_v8 main_v12
  let main_v14 : FVec F S800000x4 .f32 := Host.absf main_arg3
  let main_cst_4 : FVec F S_ .f32 := constant S_ .f32 0x7F800000#32
  let main_v15 : FVec F S800000x4 .f32 := broadcastInDim S800000x4 ![] bcast_S_S800000x4 main_cst_4
  let main_v16 : IVec S800000x4 1 := cmpf .olt main_v14 main_v15
  fn_part1 (F := F) main_arg4 main_arg6 main_arg7 main_arg8 main_arg9 main_arg10 main_arg11 main_v13 main_v16
-- ==== Kernel.lean ====
abbrev S50000x96 : Shape := ⟨2, ![50000, 96]⟩
abbrev S800000x96 : Shape := ⟨2, ![800000, 96]⟩
abbrev S800000x4 : Shape := ⟨2, ![800000, 4]⟩
abbrev S800000 : Shape := ⟨1, ![800000]⟩
abbrev S96x96 : Shape := ⟨2, ![96, 96]⟩
abbrev S96 : Shape := ⟨1, ![96]⟩
abbrev S192x96 : Shape := ⟨2, ![192, 96]⟩
abbrev S5000x96 : Shape := ⟨2, ![5000, 96]⟩
abbrev S1x96 : Shape := ⟨2, ![1, 96]⟩
abbrev S4000x96 : Shape := ⟨2, ![4000, 96]⟩
abbrev S800000x1 : Shape := ⟨2, ![800000, 1]⟩
abbrev S_ : Shape := ⟨0, ![]⟩
abbrev S1 : Shape := ⟨1, ![1]⟩
abbrev S1x1 : Shape := ⟨2, ![1, 1]⟩

abbrev nBuf : Space → Nat
  | .hbm => 48
  | .vmem => 21
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S800000x96, .f32⟩
  | .hbm, ⟨3, _⟩ => ⟨S800000x4, .f32⟩
  | .hbm, ⟨4, _⟩ => ⟨S800000, .i32⟩
  | .hbm, ⟨5, _⟩ => ⟨S800000, .i32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S192x96, .f32⟩
  | .hbm, ⟨11, _⟩ => ⟨S96, .f32⟩
  | .hbm, ⟨12, _⟩ => ⟨S50000x96, .f32⟩
  | .hbm, ⟨13, _⟩ => ⟨S800000x96, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x96, .f32⟩
  | .hbm, ⟨34, _⟩ => ⟨S800000x96, .i1⟩
  | .hbm, ⟨35, _⟩ => ⟨S_, .f32⟩
  | .hbm, ⟨36, _⟩ => ⟨S800000x96, .f32⟩
  | .hbm, ⟨37, _⟩ => ⟨S800000x96, .f32⟩
  | .hbm, ⟨38, _⟩ => ⟨S800000x96, .f32⟩
  | .hbm, ⟨39, _⟩ => ⟨S800000x96, .f32⟩
  | .hbm, ⟨40, _⟩ => ⟨S800000x96, .f32⟩
  | .hbm, ⟨41, _⟩ => ⟨S_, .f32⟩
  | .hbm, ⟨42, _⟩ => ⟨S50000x96, .f32⟩
  | .hbm, ⟨43, _⟩ => ⟨S800000x1, .i32⟩
  | .hbm, ⟨44, _⟩ => ⟨S50000x96, .f32⟩
  | .hbm, ⟨45, _⟩ => ⟨S96x96, .f32⟩
  | .hbm, ⟨46, _⟩ => ⟨S96x96, .f32⟩
  | .hbm, ⟨47, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S96, .f32⟩
  | .local _ .vmem, ⟨4, _⟩ => ⟨S5000x96, .f32⟩
  | .local _ .vmem, ⟨5, _⟩ => ⟨S5000x96, .f32⟩
  | .local _ .vmem, ⟨6, _⟩ => ⟨S4000x96, .f32⟩
  | .local _ .vmem, ⟨7, _⟩ => ⟨S4000x96, .f32⟩
  | .local _ .vmem, ⟨8, _⟩ => ⟨S96x96, .f32⟩
  | .local _ .vmem, ⟨9, _⟩ => ⟨S96, .f32⟩
  | .local _ .vmem, ⟨10, _⟩ => ⟨S4000x96, .f32⟩
  | .local _ .vmem, ⟨11, _⟩ => ⟨S4000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S96x96, .f32⟩
  | .local _ .vmem, ⟨17, _⟩ => ⟨S96x96, .f32⟩
  | .local _ .vmem, ⟨18, _⟩ => ⟨S96, .f32⟩
  | .local _ .vmem, ⟨19, _⟩ => ⟨S5000x96, .f32⟩
  | .local _ .vmem, ⟨20, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S4000x96_S4000x96_0_0 : ∀ a, (![0, 0] : Fin 2 → Nat) a + S4000x96.size a ≤ S4000x96.size a
  h_S4000x96 : 0 < S4000x96.numel
  broadcasts_S1x96_S4000x96 : S1x96.Broadcasts S4000x96
  slices_S800000x4_S800000x1_0_1 : S800000x4.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S192x96_S96x96_0_0 : S192x96.Slices ![0, 0] S96x96
  slices_S192x96_S96x96_96_0 : S192x96.Slices ![96, 0] S96x96
  shapeCasts_S5000x96_S5000x96 : S5000x96.ShapeCasts S5000x96
  shapeCasts_S96x96_S96x96 : S96x96.ShapeCasts S96x96
  dot_S5000x96_S96x96_S5000x96_1_0_0_1_n_n_wf : DotDims.WF S5000x96 S96x96 S5000x96 [1] [0] [0] [1] [] []
  dot_S4000x96_S96x96_S4000x96_1_0_0_1_n_n_wf : DotDims.WF S4000x96 S96x96 S4000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x96.size a ≤ S800000x96.size a
  hwx1_0 : ∀ i : grid1.Coords, EltTy.bits .f32 = 32 ∨ (Rect.block (s := S800000x96) S4000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x96.size a ≤ S800000x96.size a
  hwx1_3 : ∀ i : grid1.Coords, EltTy.bits .f32 = 32 ∨ (Rect.block (s := S800000x96) S4000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96.size a ≤ S96.size a
  hwx2_4 : ∀ i : grid2.Coords, EltTy.bits .f32 = 32 ∨ (Rect.block (s := S96) S96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S4000x96_S96x96_S4000x96_1_0_0_1_n_n : DotDims S4000x96 S96x96 S4000x96 where
  lhsContracting := [1]
  rhsContracting := [0]
  lhsNonContracting := [0]
  rhsNonContracting := [1]
  lhsBatch := []
  rhsBatch := []
  wf := dot_S4000x96_S96x96_S4000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S800000x4 : Shape := ⟨2, ![800000, 4]⟩
abbrev S800000 : Shape := ⟨1, ![800000]⟩
abbrev S96x96 : Shape := ⟨2, ![96, 96]⟩
abbrev S96 : Shape := ⟨1, ![96]⟩
abbrev S192x96 : Shape := ⟨2, ![192, 96]⟩
abbrev S_ : Shape := ⟨0, ![]⟩
abbrev S1x96 : Shape := ⟨2, ![1, 96]⟩
abbrev S800000x1 : Shape := ⟨2, ![800000, 1]⟩
abbrev S50000x192 : Shape := ⟨2, ![50000, 192]⟩

abbrev nBuf : Space → Nat
  | .hbm => 56
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S800000x96, .f32⟩
  | .hbm, ⟨3, _⟩ => ⟨S800000x4, .f32⟩
  | .hbm, ⟨4, _⟩ => ⟨S800000, .i32⟩
  | .hbm, ⟨5, _⟩ => ⟨S800000, .i32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S192x96, .f32⟩
  | .hbm, ⟨11, _⟩ => ⟨S96, .f32⟩
  | .hbm, ⟨12, _⟩ => ⟨S_, .f32⟩
  | .hbm, ⟨13, _⟩ => ⟨S_, .f32⟩
  | .hbm, ⟨14, _⟩ => ⟨S50000x96, .f32⟩
  | .hbm, ⟨15, _⟩ => ⟨S50000x96, .i1⟩
  | .hbm, ⟨16, _⟩ => ⟨S_, .f32⟩
  | .hbm, ⟨17, _⟩ => ⟨S50000x96, .f32⟩
  | .hbm, ⟨18, _⟩ => ⟨S50000x96, .f32⟩
  | .hbm, ⟨19, _⟩ => ⟨S50000x96, .f32⟩
  | .hbm, ⟨20, _⟩ => ⟨S50000x96, .f32⟩
  | .hbm, ⟨21, _⟩ => ⟨S1x96, .f32⟩
  | .hbm, ⟨22, _⟩ => ⟨S50000x96, .f32⟩
  | .hbm, ⟨23, _⟩ => ⟨S50000x96, .f32⟩
  | .hbm, ⟨24, _⟩ => ⟨S_, .f32⟩
  | .hbm, ⟨25, _⟩ => ⟨S50000x96, .f32⟩
  | .hbm, ⟨26, _⟩ => ⟨S50000x96, .f32⟩
  | .hbm, ⟨27, _⟩ => ⟨S800000x96, .f32⟩
  | .hbm, ⟨28, _⟩ => ⟨S1x96, .f32⟩
  | .hbm, ⟨29, _⟩ => ⟨S800000x96, .f32⟩
  | .hbm, ⟨30, _⟩ => ⟨S800000x96, .f32⟩
  | .hbm, ⟨31, _⟩ => ⟨S800000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x96, .f32⟩
  | .hbm, ⟨41, _⟩ => ⟨S800000x96, .f32⟩
  | .hbm, ⟨42, _⟩ => ⟨S800000x96, .f32⟩
  | .hbm, ⟨43, _⟩ => ⟨S800000x96, .f32⟩
  | .hbm, ⟨44, _⟩ => ⟨S_, .f32⟩
  | .hbm, ⟨45, _⟩ => ⟨S50000x96, .f32⟩
  | .hbm, ⟨46, _⟩ => ⟨S800000x1, .i32⟩
  | .hbm, ⟨47, _⟩ => ⟨S50000x96, .f32⟩
  | .hbm, ⟨48, _⟩ => ⟨S50000x192, .f32⟩
  | .hbm, ⟨49, _⟩ => ⟨S50000x96, .f32⟩
  | .hbm, ⟨50, _⟩ => ⟨S1x96, .f32⟩
  | .hbm, ⟨51, _⟩ => ⟨S50000x96, .f32⟩
  | .hbm, ⟨52, _⟩ => ⟨S50000x96, .f32⟩
  | .hbm, ⟨53, _⟩ => ⟨S_, .f32⟩
  | .hbm, ⟨54, _⟩ => ⟨S50000x96, .f32⟩
  | .hbm, ⟨55, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_cst : Ref sig .tc := ⟨.hbm, 24, rfl⟩
abbrev main_call1_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_cst : Ref sig .tc := ⟨.hbm, 53, rfl⟩
abbrev main_call2_v0 : Ref sig .tc := ⟨.hbm, 54, rfl⟩
abbrev main_v29 : Ref sig .tc := ⟨.hbm, 55, rfl⟩

abbrev nD : Nat := 1
abbrev τ : Topo := Topo.v7x

variable {F : FTy → Type} [FloatOps F]

class Facts₀ : Prop where
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S1x96_S800000x96_0_1 : S1x96.BroadcastsInDim S800000x96 (![0, 1] : Fin 2 → Fin S800000x96.rank)
  slices_S800000x4_S800000x1_0_1 : S800000x4.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  concatenates_S50000x96_S50000x96_S50000x192_d1 : Shape.Concatenates [S50000x96, S50000x96] S50000x192 1
  dot_S50000x96_S96x96_S50000x96_1_0_0_1_n_n_wf : DotDims.WF S50000x96 S96x96 S50000x96 [1] [0] [0] [1] [] []
  dot_S800000x96_S96x96_S800000x96_1_0_0_1_n_n_wf : DotDims.WF S800000x96 S96x96 S800000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf

class Facts : Prop extends Facts₀ where

variable [Facts]
-- ==== Proof.Spec.lean ====
/-
  The three projections, one output entry from one row, over the extended reals.

  Each dense stage of the message-passing layer acts row by row: output row `r` depends on input row `r` and on the
  weights only. So each stage is stated once as a function from a row (`Fin 96 → EReal`) to an entry:
    * the node projection  `max (∑ₖ leaky(rₖ) · A_w[k,q] + A_b[q]) 0`, `leaky x` being `x` where `x ≥ 0` and `0.2·x` elsewhere;
    * the edge projection  `∑ₖ rₖ · M_w[k,q] + M_b[q]`;
    * the output projection `max (∑ₖ aₖ · W₁[k,q] + ∑ₖ vₖ · W₂[k,q] + W_b[q]) 0` of an aggregate row `a` and a
      feature row `v`, `W₁` and `W₂` the upper and lower halves of `W_w`.
  The same functions serve a block of rows and the whole array.
-/
import Idealize.ShloMosaic.PureOps
import Idealize.ShloMosaic.Lib.ValueIdx

noncomputable section

namespace Cert.Spec

open Idealize.ShloMosaic Idealize.ShloMosaic.ValueIdx

/-- A 96×96 weight matrix and a 96-entry bias, as functions of their indices. -/
abbrev Mat : Type := (⟨2, ![96, 96]⟩ : Shape).Idx → EReal
abbrev Bias : Type := (⟨1, ![96]⟩ : Shape).Idx → EReal

/-- The f32 zero and the slope 0.2's f32 word, as extended reals. -/
abbrev zero : EReal := Ideal.ofBits .f32 0x00000000#32
abbrev slope : EReal := Ideal.ofBits .f32 0x3E4CCCCD#32

/-- The leaky rectifier as both programs spell it: a select on `x ≥ 0` between `x` and `slope · x`. -/
def leaky (x : EReal) : EReal :=
  Scalar.select (FloatOps.cmpf (F := Ideal) (φ := .f32) .oge x zero) x (slope * x)

/-- One entry of the node projection from one row of node features. -/
def rowNode (r : Fin 96 → EReal) (Aw : Mat) (Ab : Bias) (q : Fin 96) : EReal :=
  max ((∑ k : Fin 96, leaky (r k) * Aw (ix2 k q)) + Ab (ix1 q)) zero

/-- One entry of the edge projection from one row of edge features. -/
def rowEdge (r : Fin 96 → EReal) (Mw : Mat) (Mb : Bias) (q : Fin 96) : EReal :=
  (∑ k : Fin 96, r k * Mw (ix2 k q)) + Mb (ix1 q)

/-- One entry of the output projection from an aggregate row and a feature row. -/
def rowOut (ra rv : Fin 96 → EReal) (W1 W2 : Mat) (Wb : Bias) (q : Fin 96) : EReal :=
  max ((∑ k : Fin 96, ra k * W1 (ix2 k q)) + (∑ k : Fin 96, rv k * W2 (ix2 k q)) + Wb (ix1 q)) zero

/-- The three stages on whole arrays: each output entry from its row. -/
def nodeArr (V : (⟨2, ![50000, 96]⟩ : Shape).Idx → EReal) (Aw : Mat) (Ab : Bias) : (⟨2, ![50000, 96]⟩ : Shape).Idx → EReal :=
  fun i => rowNode (fun k => V (ix2 (i 0) k)) Aw Ab (i 1)

def edgeArr (E : (⟨2, ![800000, 96]⟩ : Shape).Idx → EReal) (Mw : Mat) (Mb : Bias) : (⟨2, ![800000, 96]⟩ : Shape).Idx → EReal :=
  fun i => rowEdge (fun k => E (ix2 (i 0) k)) Mw Mb (i 1)

def outArr (agg Vin : (⟨2, ![50000, 96]⟩ : Shape).Idx → EReal) (W1 W2 : Mat) (Wb : Bias) : (⟨2, ![50000, 96]⟩ : Shape).Idx → EReal :=
  fun i => rowOut (fun k => agg (ix2 (i 0) k)) (fun k => Vin (ix2 (i 0) k)) W1 W2 Wb (i 1)

/-- The row functions depend on their arguments pointwise. -/
theorem rowNode_congr {r r' : Fin 96 → EReal} {Aw Aw' : Mat} {Ab Ab' : Bias} {q q' : Fin 96}
    (hr : ∀ k, r k = r' k) (hw : ∀ i, Aw i = Aw' i) (hb : ∀ i, Ab i = Ab' i) (hq : q = q') :
    rowNode r Aw Ab q = rowNode r' Aw' Ab' q' := by
  obtain rfl : r = r' := funext hr
  obtain rfl : Aw = Aw' := funext hw
  obtain rfl : Ab = Ab' := funext hb
  rw [hq]

theorem rowEdge_congr {r r' : Fin 96 → EReal} {Mw Mw' : Mat} {Mb Mb' : Bias} {q q' : Fin 96}
    (hr : ∀ k, r k = r' k) (hw : ∀ i, Mw i = Mw' i) (hb : ∀ i, Mb i = Mb' i) (hq : q = q') :
    rowEdge r Mw Mb q = rowEdge r' Mw' Mb' q' := by
  obtain rfl : r = r' := funext hr
  obtain rfl : Mw = Mw' := funext hw
  obtain rfl : Mb = Mb' := funext hb
  rw [hq]

theorem rowOut_congr {ra ra' rv rv' : Fin 96 → EReal} {W1 W1' W2 W2' : Mat} {Wb Wb' : Bias} {q q' : Fin 96}
    (ha : ∀ k, ra k = ra' k) (hv : ∀ k, rv k = rv' k) (h1 : ∀ i, W1 i = W1' i) (h2 : ∀ i, W2 i = W2' i)
    (hb : ∀ i, Wb i = Wb' i) (hq : q = q') :
    rowOut ra rv W1 W2 Wb q = rowOut ra' rv' W1' W2' Wb' q' := by
  obtain rfl : ra = ra' := funext ha
  obtain rfl : rv = rv' := funext hv
  obtain rfl : W1 = W1' := funext h1
  obtain rfl : W2 = W2' := funext h2
  obtain rfl : Wb = Wb' := funext hb
  rw [hq]

end Cert.Spec

end
-- ==== Proof.LibPlainDot.lean ====
/-
  A plain matrix product's contraction sum, re-indexed.

  For the dimension numbers of an `M×K` by `K×N` product (`DotDims.plain`: the left operand contracted on its
  columns, the right on its rows, no batch axis) the contraction index has one coordinate, ranging over `Fin K`, and
  at output index `j = (r, c)` the operand indices are `(r, k)` and `(k, c)`. So the sum over the contraction index
  of the operands' products is `∑ k : Fin K, lhs (r, k) * rhs (k, c)`, in any commutative additive monoid.
-/
import Idealize.ShloMosaic.PureOps.Dims
import Idealize.ShloMosaic.Lib.ValueIdx

namespace Cert.Lib.PlainDot

open Idealize.ShloMosaic Idealize.ShloMosaic.ValueIdx

variable {M K N : Nat}

/-- The one-axis contraction index of a plain product as its coordinate in `Fin K`. -/
noncomputable abbrev kEquiv (M K N : Nat) : (DotDims.plain M K N).contr.Idx ≃ Fin K :=
  contrEquiv1 (DotDims.plain M K N) K rfl rfl

/-- The left operand's index at output `j` and contraction coordinate `k` is `(j 0, k)`. -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K rfl rfl k)

/-- The right operand's index at output `j` and contraction coordinate `k` is `(k, j 1)`. -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K rfl rfl k)
  | ⟨1, _⟩ => rfl

/-- The contraction sum of a plain product is the sum over `Fin K` of row entry times column entry. -/
theorem sum_eq {R : Type*} [AddCommMonoid R] [Mul R] (lhs : (⟨2, ![M, K]⟩ : Shape).Idx → R)
    (rhs : (⟨2, ![K, N]⟩ : Shape).Idx → R) (j : (⟨2, ![M, N]⟩ : Shape).Idx) :
    ∑ k : (DotDims.plain M K N).contr.Idx,
        lhs ((DotDims.plain M K N).lhsIdx j k) * rhs ((DotDims.plain M K N).rhsIdx j k)
      = ∑ k : Fin K, lhs (ix2 (j 0) k) * rhs (ix2 k (j 1)) := by
  rw [← Equiv.sum_comp (kEquiv M K N).symm]
  exact Finset.sum_congr rfl fun k _ =>
    congrArg₂ (· * ·) (congrArg lhs (lhsIdx_eq j k)) (congrArg rhs (rhsIdx_eq j k))

end Cert.Lib.PlainDot
-- ==== Proof.Payloads.lean ====
/-
  The three kernel bodies' stored values, read at an index.

  Each body loads a block of rows and the whole weights, and stores one value: the node body the leaky rectifier,
  a matrix product into a zero accumulator, the bias row broadcast over the block, a maximum with zero; the edge
  body the product and the bias; the output body two products added, the bias, the maximum. A change of float format
  is the identity on the extended reals, so at entry `(p, q)` of the block each stored value is the row function of
  `Spec` applied to row `p` of the loaded block.
-/
import proofs.«421761_j58368605552696_2_alg».proof.Proof.Gen.KernelIdeal.Skeleton
import proofs.«421761_j58368605552696_2_alg».proof.Proof.Spec
import proofs.«421761_j58368605552696_2_alg».proof.Proof.LibPlainDot
import Idealize.ShloMosaic.PureOps.Ideal.Laws
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- A 5000-row block times a 96×96 matrix into zeros, at `(p, q)`: row `p` against column `q`. -/
theorem matmul5000 (a : FVec Ideal S5000x96 .bf16) (b : FVec Ideal S96x96 .bf16) (p : Fin 5000) (q : Fin 96) :
    matmul dot_S5000x96_S96x96_S5000x96_1_0_0_1_n_n none a b (constant (F := Ideal) S5000x96 .f32 0x00000000#32) (ix2 p q)
      = ∑ k : Fin 96, a (ix2 p k) * b (ix2 k q) :=
  (Ideal.matmul_constant_zero_apply _ none a b (ix2 p q)).trans
    (Cert.Lib.PlainDot.sum_eq (M := 5000) (K := 96) (N := 96) a b (ix2 p q))

/-- A 4000-row block times a 96×96 matrix into zeros, at `(p, q)`. -/
theorem matmul4000 (a : FVec Ideal S4000x96 .bf16) (b : FVec Ideal S96x96 .bf16) (p : Fin 4000) (q : Fin 96) :
    matmul dot_S4000x96_S96x96_S4000x96_1_0_0_1_n_n none a b (constant (F := Ideal) S4000x96 .f32 0x00000000#32) (ix2 p q)
      = ∑ k : Fin 96, a (ix2 p k) * b (ix2 k q) :=
  (Ideal.matmul_constant_zero_apply _ none a b (ix2 p q)).trans
    (Cert.Lib.PlainDot.sum_eq (M := 4000) (K := 96) (N := 96) a b (ix2 p q))

/-- The bias cast to one row and broadcast over 5000 rows, at `(p, q)`: the bias at `q`. -/
theorem bias5000 (x : Vec Ideal S96 .f32) (p : Fin 5000) (q : Fin 96) :
    broadcastTo S5000x96 (shapeCast S1x96 x shapeCasts_S96_S1x96) broadcasts_S1x96_S5000x96 (ix2 p q) = x (ix1 q) :=
  (broadcastTo_1b_ab_apply _ _ p q).trans (shapeCast_a_1a_apply x _ 0 q)

/-- The bias cast to one row and broadcast over 4000 rows, at `(p, q)`. -/
theorem bias4000 (x : Vec Ideal S96 .f32) (p : Fin 4000) (q : Fin 96) :
    broadcastTo S4000x96 (shapeCast S1x96 x shapeCasts_S96_S1x96) broadcasts_S1x96_S4000x96 (ix2 p q) = x (ix1 q) :=
  (broadcastTo_1b_ab_apply _ _ p q).trans (shapeCast_a_1a_apply x _ 0 q)

/-- The node body's stored value at `(p, q)`. -/
theorem node (x0 : Vec Ideal S5000x96 .f32) (x1 : Vec Ideal S96x96 .f32) (x2 : Vec Ideal S96 .f32) (p : Fin 5000) (q : Fin 96) :
    k0_pay1 x0 x1 x2 (ix2 p q) = Cert.Spec.rowNode (fun k => x0 (ix2 p k)) x1 x2 q := by
  unfold k0_pay1 Cert.Spec.rowNode
  simp only [maximumf_apply, addf_apply, broadcast_apply]
  rw [matmul5000, bias5000]
  rfl

/-- The edge body's stored value at `(p, q)`. -/
theorem edge (x0 : Vec Ideal S4000x96 .f32) (x1 : Vec Ideal S96x96 .f32) (x2 : Vec Ideal S96 .f32) (p : Fin 4000) (q : Fin 96) :
    k1_pay1 x0 x1 x2 (ix2 p q) = Cert.Spec.rowEdge (fun k => x0 (ix2 p k)) x1 x2 q := by
  unfold k1_pay1 Cert.Spec.rowEdge
  simp only [addf_apply]
  rw [matmul4000, bias4000]
  rfl

/-- The output body's stored value at `(p, q)`. -/
theorem outp (x0 x1 : Vec Ideal S5000x96 .f32) (x2 x3 : Vec Ideal S96x96 .f32) (x4 : Vec Ideal S96 .f32) (p : Fin 5000) (q : Fin 96) :
    k2_pay1 x0 x1 x2 x3 x4 (ix2 p q) = Cert.Spec.rowOut (fun k => x0 (ix2 p k)) (fun k => x1 (ix2 p k)) x2 x3 x4 q := by
  unfold k2_pay1 Cert.Spec.rowOut
  simp only [maximumf_apply, addf_apply, broadcast_apply]
  rw [matmul5000, matmul5000, bias5000]
  simp only [shapeCast_self]
  rfl

/-- The same three at a general index of the block. -/
theorem node_at (x0 : Vec Ideal S5000x96 .f32) (x1 : Vec Ideal S96x96 .f32) (x2 : Vec Ideal S96 .f32) (j : S5000x96.Idx) :
    k0_pay1 x0 x1 x2 j = Cert.Spec.rowNode (fun k => x0 (ix2 (j 0) k)) x1 x2 (j 1) := by
  obtain ⟨p, q, rfl⟩ : ∃ (p : Fin 5000) (q : Fin 96), j = ix2 p q := ⟨j 0, j 1, eq_ix2 j⟩
  exact node x0 x1 x2 p q

theorem edge_at (x0 : Vec Ideal S4000x96 .f32) (x1 : Vec Ideal S96x96 .f32) (x2 : Vec Ideal S96 .f32) (j : S4000x96.Idx) :
    k1_pay1 x0 x1 x2 j = Cert.Spec.rowEdge (fun k => x0 (ix2 (j 0) k)) x1 x2 (j 1) := by
  obtain ⟨p, q, rfl⟩ : ∃ (p : Fin 4000) (q : Fin 96), j = ix2 p q := ⟨j 0, j 1, eq_ix2 j⟩
  exact edge x0 x1 x2 p q

theorem outp_at (x0 x1 : Vec Ideal S5000x96 .f32) (x2 x3 : Vec Ideal S96x96 .f32) (x4 : Vec Ideal S96 .f32) (j : S5000x96.Idx) :
    k2_pay1 x0 x1 x2 x3 x4 j
      = Cert.Spec.rowOut (fun k => x0 (ix2 (j 0) k)) (fun k => x1 (ix2 (j 0) k)) x2 x3 x4 (j 1) := by
  obtain ⟨p, q, rfl⟩ : ∃ (p : Fin 5000) (q : Fin 96), j = ix2 p q := ⟨j 0, j 1, eq_ix2 j⟩
  exact outp x0 x1 x2 x3 x4 p q

end Cert.KernelIdeal.Pay

end
-- ==== Proof.NodeArr.lean ====
/-
  The node projection's output array, whole.

  The first region walks ten blocks of 5000 node rows: at point `t` it loads rows `5000·t … 5000·t + 4999` of the node
  features and the whole of `A_w` and `A_b`, and writes back the body's value as the same rows of the output. The body's
  value at an entry is the row function of that entry's row, so what point `t` writes back is block `t` of ONE function
  of the array index, and the ten blocks cover the array (row `r` lies in block `r / 5000`).
-/
import proofs.«421761_j58368605552696_2_alg».proof.Proof.Gen.KernelIdeal.Frame
import proofs.«421761_j58368605552696_2_alg».proof.Proof.Payloads
import Idealize.ShloMosaic.Lib.Pipeline.Value

set_option maxRecDepth 16384

noncomputable section

namespace Cert.KernelIdeal.NodeArr

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The output array as one function of its index: the node row function of the index's row. -/
def G (c : Dev nD) : S50000x96.Idx → EReal := fun i =>
  Cert.Spec.rowNode (fun k => V c main_arg0 (ix2 (i 0) k)) (V c main_arg6) (V c main_arg7) (i 1)

/-- The printed index maps over the grid: the row-blocked windows are at block `t`, the weights at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S5000x96) hz2, View.ld_unit_zero (S := S96x96) hz2, View.ld_unit_zero (S := S96) hz1]
  funext j
  show k0_pay1 (iblk0 V c 0 t) (iblk0 V c 1 t) (iblk0 V c 2 t) j = G V c (((cfg0.win 3).blk t).view.emb j)
  refine (Cert.KernelIdeal.Pay.node_at _ _ _ j).trans ?_
  unfold G
  obtain ⟨e00, e01, e10, e11, e20, e30, e31⟩ := idx_facts t
  refine Cert.Spec.rowNode_congr (fun k => ?_) (fun i => ?_) (fun i => ?_) ?_
  · show V c main_arg0 (((cfg0.win 0).blk t).view.emb (ix2 (j 0) k))
        = V c main_arg0 (ix2 ((((cfg0.win 3).blk t).view.emb j) 0) k)
    refine congrArg (V c main_arg0) ?_
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 96 + 1 * k.val = k.val; omega
  · show V c main_arg6 (((cfg0.win 1).blk t).view.emb i) = V c main_arg6 i
    refine congrArg (V c main_arg6) ?_
    funext a; apply Fin.ext
    match a with
    | ⟨0, _⟩ => show win0_1.index t (0 : Fin 2) * 96 + 1 * (i 0).val = (i 0).val; omega
    | ⟨1, _⟩ => show win0_1.index t (1 : Fin 2) * 96 + 1 * (i 1).val = (i 1).val; omega
  · show V c main_arg7 (((cfg0.win 2).blk t).view.emb i) = V c main_arg7 i
    refine congrArg (V c main_arg7) ?_
    funext a; apply Fin.ext
    match a with
    | ⟨0, _⟩ => show win0_2.index t (0 : Fin 1) * 96 + 1 * (i 0).val = (i 0).val; omega
  · apply Fin.ext
    show (j 1).val = win0_3.index t (1 : Fin 2) * 96 + 1 * (j 1).val
    omega

/-- An index of the output array is in point `t`'s block iff each coordinate is in the block's range on its axis. -/
theorem mem_blk (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v0).slice (win0_3.rect t)).set ↔ _
  rw [View.set_slice_whole, Rect.mem_set_unit]
  exact Iff.rfl

/-- Every index of the output array is in the block of the point its row divides to. -/
theorem cover (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hlt : (i 0).val / 5000 < cfg0.N := by show _ < grid0.N; rw [N_0]; omega
  obtain ⟨-, -, -, -, -, e30, e31⟩ := idx_facts ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 96 ≤ (i 1).val ∧ (i 1).val < win0_3.index ⟨(i 0).val / 5000, hlt⟩ (1 : Fin 2) * 96 + 96
    rw [e31]; omega

/-- The output array after the region is the node row function of each entry's row of the array the region found. -/
theorem arr (c : Dev nD) : (dat0 V c).arrAt 3 cfg0.N = G V c :=
  (dat0 V c).arrAt_eq_of_cover 3 (G V c) (fun t _ => flushed_eq V c t) (cover)

end Cert.KernelIdeal.NodeArr

end
-- ==== Proof.EdgeArr.lean ====
/-
  The edge projection's output array, whole.

  The second region walks two hundred blocks of 4000 edge rows: at point `t` it loads rows `4000·t … 4000·t + 3999` of
  the edge features and the whole of `M_w` and `M_b`, and writes back the body's value as the same rows of the output.
  The body's value at an entry is the edge row function of that entry's row, so what point `t` writes back is block
  `t` of one function of the array index, and the blocks cover the array (row `r` lies in block `r / 4000`).
-/
import proofs.«421761_j58368605552696_2_alg».proof.Proof.Gen.KernelIdeal.Frame
import proofs.«421761_j58368605552696_2_alg».proof.Proof.Payloads
import Idealize.ShloMosaic.Lib.Pipeline.Value

set_option maxRecDepth 16384

noncomputable section

namespace Cert.KernelIdeal.EdgeArr

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The output array as one function of its index: the edge row function of the index's row. -/
def G (c : Dev nD) : S800000x96.Idx → EReal := fun i =>
  Cert.Spec.rowEdge (fun k => V c main_arg2 (ix2 (i 0) k)) (V c main_arg8) (V c main_arg9) (i 1)

/-- The printed index maps over the grid: the row-blocked windows are at block `t`, the weights at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S4000x96) hz2, View.ld_unit_zero (S := S96x96) hz2, View.ld_unit_zero (S := S96) hz1]
  funext j
  show k1_pay1 (iblk1 V c 0 t) (iblk1 V c 1 t) (iblk1 V c 2 t) j = G V c (((cfg1.win 3).blk t).view.emb j)
  refine (Cert.KernelIdeal.Pay.edge_at _ _ _ j).trans ?_
  unfold G
  obtain ⟨e00, e01, e10, e11, e20, e30, e31⟩ := idx_facts t
  refine Cert.Spec.rowEdge_congr (fun k => ?_) (fun i => ?_) (fun i => ?_) ?_
  · show V c main_arg2 (((cfg1.win 0).blk t).view.emb (ix2 (j 0) k))
        = V c main_arg2 (ix2 ((((cfg1.win 3).blk t).view.emb j) 0) k)
    refine congrArg (V c main_arg2) ?_
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 96 + 1 * k.val = k.val; omega
  · show V c main_arg8 (((cfg1.win 1).blk t).view.emb i) = V c main_arg8 i
    refine congrArg (V c main_arg8) ?_
    funext a; apply Fin.ext
    match a with
    | ⟨0, _⟩ => show win1_1.index t (0 : Fin 2) * 96 + 1 * (i 0).val = (i 0).val; omega
    | ⟨1, _⟩ => show win1_1.index t (1 : Fin 2) * 96 + 1 * (i 1).val = (i 1).val; omega
  · show V c main_arg9 (((cfg1.win 2).blk t).view.emb i) = V c main_arg9 i
    refine congrArg (V c main_arg9) ?_
    funext a; apply Fin.ext
    match a with
    | ⟨0, _⟩ => show win1_2.index t (0 : Fin 1) * 96 + 1 * (i 0).val = (i 0).val; omega
  · apply Fin.ext
    show (j 1).val = win1_3.index t (1 : Fin 2) * 96 + 1 * (j 1).val
    omega

/-- An index of the output array is in point `t`'s block iff each coordinate is in the block's range on its axis. -/
theorem mem_blk (t : Fin cfg1.N) (i : S800000x96.Idx) :
    i ∈ ((cfg1.win 3).blk t).view.set ↔ ∀ a : Fin 2, win1_3.index t a * S4000x96.size a ≤ (i a).val ∧ (i a).val < win1_3.index t a * S4000x96.size a + S4000x96.size a := by
  show i ∈ ((View.whole main_v1).slice (win1_3.rect t)).set ↔ _
  rw [View.set_slice_whole, Rect.mem_set_unit]
  exact Iff.rfl

/-- Every index of the output array is in the block of the point its row divides to. -/
theorem cover (i : S800000x96.Idx) :
    ∃ t : Fin cfg1.N, (cfg1.win 3).flush t = true ∧ i ∈ ((cfg1.win 3).blk t).view.set := by
  have hi0 : (i 0).val < 800000 := (i 0).isLt
  have hi1 : (i 1).val < 96 := (i 1).isLt
  have hlt : (i 0).val / 4000 < cfg1.N := by show _ < grid1.N; rw [N_1]; omega
  obtain ⟨-, -, -, -, -, e30, e31⟩ := idx_facts ⟨(i 0).val / 4000, hlt⟩
  refine ⟨⟨(i 0).val / 4000, hlt⟩, flush1_3 _, ?_⟩
  rw [mem_blk]
  intro a
  match a with
  | ⟨0, _⟩ =>
    show win1_3.index ⟨(i 0).val / 4000, hlt⟩ (0 : Fin 2) * 4000 ≤ (i 0).val ∧ (i 0).val < win1_3.index ⟨(i 0).val / 4000, hlt⟩ (0 : Fin 2) * 4000 + 4000
    rw [e30]; show (i 0).val / 4000 * 4000 ≤ (i 0).val ∧ (i 0).val < (i 0).val / 4000 * 4000 + 4000; omega
  | ⟨1, _⟩ =>
    show win1_3.index ⟨(i 0).val / 4000, hlt⟩ (1 : Fin 2) * 96 ≤ (i 1).val ∧ (i 1).val < win1_3.index ⟨(i 0).val / 4000, hlt⟩ (1 : Fin 2) * 96 + 96
    rw [e31]; omega

/-- The output array after the region is the edge row function of each entry's row of the array the region found. -/
theorem arr (c : Dev nD) : (dat1 V c).arrAt 3 cfg1.N = G V c :=
  (dat1 V c).arrAt_eq_of_cover 3 (G V c) (fun t _ => flushed_eq V c t) (cover)

end Cert.KernelIdeal.EdgeArr

end
-- ==== Proof.OutArr.lean ====
/-
  The output projection's output array, whole.

  The third region walks ten blocks of 5000 node rows: at point `t` it loads rows `5000·t … 5000·t + 4999` of the
  aggregate and of `V_in`, and the whole of the two halves of `W_w` and of `W_b`, and writes back the body's value as
  the same rows of the output. The body's value at an entry is the output row function of that entry's aggregate row
  and feature row, so what point `t` writes back is block `t` of one function of the array index, and the ten blocks
  cover the array (row `r` lies in block `r / 5000`).
-/
import proofs.«421761_j58368605552696_2_alg».proof.Proof.Gen.KernelIdeal.Frame
import proofs.«421761_j58368605552696_2_alg».proof.Proof.Payloads
import Idealize.ShloMosaic.Lib.Pipeline.Value

set_option maxRecDepth 16384

noncomputable section

namespace Cert.KernelIdeal.OutArr

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The output array as one function of its index: the output row function of the index's aggregate and feature rows. -/
def G (c : Dev nD) : S50000x96.Idx → EReal := fun i =>
  Cert.Spec.rowOut (fun k => V c main_v9 (ix2 (i 0) k)) (fun k => V c main_arg1 (ix2 (i 0) k))
    (V c main_v10) (V c main_v11) (V c main_arg11) (i 1)

/-- The printed index maps over the grid: the row-blocked windows are at block `t`, the weights at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz2]
  simp only [View.ld_unit_zero (S := S5000x96) hz2, View.ld_unit_zero (S := S96x96) hz2, View.ld_unit_zero (S := S96) hz1]
  funext j
  show k2_pay1 (iblk2 V c 0 t) (iblk2 V c 1 t) (iblk2 V c 2 t) (iblk2 V c 3 t) (iblk2 V c 4 t) j
      = G V c (((cfg2.win 5).blk t).view.emb j)
  refine (Cert.KernelIdeal.Pay.outp_at _ _ _ _ _ j).trans ?_
  unfold G
  obtain ⟨e00, e01, e10, e11, e20, e21, e30, e31, e40, e50, e51⟩ := idx_facts t
  refine Cert.Spec.rowOut_congr (fun k => ?_) (fun k => ?_) (fun i => ?_) (fun i => ?_) (fun i => ?_) ?_
  · show V c main_v9 (((cfg2.win 0).blk t).view.emb (ix2 (j 0) k))
        = V c main_v9 (ix2 ((((cfg2.win 5).blk t).view.emb j) 0) k)
    refine congrArg (V c main_v9) ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 96 + 1 * k.val = k.val; omega
  · show V c main_arg1 (((cfg2.win 1).blk t).view.emb (ix2 (j 0) k))
        = V c main_arg1 (ix2 ((((cfg2.win 5).blk t).view.emb j) 0) k)
    refine congrArg (V c main_arg1) ?_
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 96 + 1 * k.val = k.val; omega
  · show V c main_v10 (((cfg2.win 2).blk t).view.emb i) = V c main_v10 i
    refine congrArg (V c main_v10) ?_
    funext a; apply Fin.ext
    match a with
    | ⟨0, _⟩ => show win2_2.index t (0 : Fin 2) * 96 + 1 * (i 0).val = (i 0).val; omega
    | ⟨1, _⟩ => show win2_2.index t (1 : Fin 2) * 96 + 1 * (i 1).val = (i 1).val; omega
  · show V c main_v11 (((cfg2.win 3).blk t).view.emb i) = V c main_v11 i
    refine congrArg (V c main_v11) ?_
    funext a; apply Fin.ext
    match a with
    | ⟨0, _⟩ => show win2_3.index t (0 : Fin 2) * 96 + 1 * (i 0).val = (i 0).val; omega
    | ⟨1, _⟩ => show win2_3.index t (1 : Fin 2) * 96 + 1 * (i 1).val = (i 1).val; omega
  · show V c main_arg11 (((cfg2.win 4).blk t).view.emb i) = V c main_arg11 i
    refine congrArg (V c main_arg11) ?_
    funext a; apply Fin.ext
    match a with
    | ⟨0, _⟩ => show win2_4.index t (0 : Fin 1) * 96 + 1 * (i 0).val = (i 0).val; omega
  · apply Fin.ext
    show (j 1).val = win2_5.index t (1 : Fin 2) * 96 + 1 * (j 1).val
    omega

/-- An index of the output array is in point `t`'s block iff each coordinate is in the block's range on its axis. -/
theorem mem_blk (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v12).slice (win2_5.rect t)).set ↔ _
  rw [View.set_slice_whole, Rect.mem_set_unit]
  exact Iff.rfl

/-- Every index of the output array is in the block of the point its row divides to. -/
theorem cover (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  have hlt : (i 0).val / 5000 < cfg2.N := by show _ < grid2.N; rw [N_2]; omega
  obtain ⟨-, -, -, -, -, -, -, -, -, e50, e51⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hlt⟩ (1 : Fin 2) * 96 ≤ (i 1).val ∧ (i 1).val < win2_5.index ⟨(i 0).val / 5000, hlt⟩ (1 : Fin 2) * 96 + 96
    rw [e51]; omega

/-- The output array after the region is the output row function of each entry's rows of the arrays the region found. -/
theorem arr (c : Dev nD) : (dat2 V c).arrAt 5 cfg2.N = G V c :=
  (dat2 V c).arrAt_eq_of_cover 5 (G V c) (fun t _ => flushed_eq V c t) (cover)

end Cert.KernelIdeal.OutArr

end
-- ==== Proof.KernelMid.lean ====
/-
  The idealized kernel's host stretch between its regions, read back.

  Between the two projections and the output projection @main runs thirty-three host operations: the hop weight
  (column 1 of `edge_attr`); jnp's `take` of projected node rows at the source indices — negatives wrapped by the node
  count, a range mask `0 ≤ w ≤ 49999` and-reduced over its unit axis, the gather, and a select that keeps the gathered
  row where the mask is set and a NaN fill elsewhere —; the message `(taken + Ep) * khop`; its scatter-add over
  destination rows into zeros; and the two halves of `W_w`. Read back at the five arrays the output region loads, over
  any contents `Wv` the stretch starts from.
-/
import proofs.«421761_j58368605552696_2_alg».proof.Proof.Gen.KernelIdeal.Launch
import Idealize.ShloMosaic.Lib.StableHlo.Run

-- the fold over thirty-three operations is rewritten one operation per level
set_option maxRecDepth 16384

noncomputable section

namespace Cert.KernelIdeal.Mid

open Cert.KernelIdeal Cert.KernelIdeal.Gen Idealize.ShloMosaic Idealize.ShloMosaic.TcCoe Idealize.SL.Sem Idealize.ShloMosaic.StableHlo

variable {F : FTy → Type} [FloatOps F]

/-- Negative indices wrapped by the number of nodes. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The wrapped indices as a column of start indices. -/
def startIdx (src : IVec S800000 32) : IVec S800000x1 32 :=
  broadcastInDim S800000x1 ![0] bcast_S800000_S800000x1_0 (wrapIdx src)

/-- Per edge: is the wrapped index in `[0, 49999]`? -/
def inRange (src : IVec S800000 32) : IVec S800000 1 :=
  Host.reduce IntOp.andi
    (andi (cmpi .sge (startIdx src) (broadcastInDim S800000x1 ![] bcast_S_S800000x1 (constantI S_ 32 0#32)))
      (cmpi .sle (startIdx src)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The gathered rows. -/
def gathered (Vp : FVec F S50000x96 .f32) (src : IVec S800000 32) : FVec F S800000x96 .f32 :=
  Host.gather gather_S50000x96_S800000x1_S800000x96_1_0_n_n_0_1_196 Vp (startIdx src)

/-- jnp's `take`: the gathered row where the index is in range, a NaN fill elsewhere. -/
def taken (Vp : FVec F S50000x96 .f32) (src : IVec S800000 32) : FVec F S800000x96 .f32 :=
  select (broadcastInDim S800000x96 ![0] bcast_S800000_S800000x96_0 (inRange src)) (gathered Vp src)
    (broadcastInDim S800000x96 ![] bcast_S_S800000x96 (constant S_ .f32 0x7FC00000#32))

/-- The hop weight: column 1 of `edge_attr`, kept as a column. -/
def khop (ea : FVec F S800000x4 .f32) : FVec F S800000x1 .f32 :=
  extractStridedSlice S800000x1 ![0, 1] ea slices_S800000x4_S800000x1_0_1

/-- Messages `(rows + Ep) * kh` summed into their destination rows, from zeros. -/
def aggCore (rows Ep : FVec F S800000x96 .f32) (kh : FVec F S800000x1 .f32) (dst : IVec S800000 32) : FVec F S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (mulf (addf rows Ep) (broadcastInDim S800000x96 ![0, 1] bcast_S800000x1_S800000x96_0_1 kh))

/-- The aggregate from given rows `rows` in place of the taken ones. -/
def aggOf (rows Ep : FVec F S800000x96 .f32) (ea : FVec F S800000x4 .f32) (dst : IVec S800000 32) : FVec F S50000x96 .f32 :=
  aggCore rows Ep (khop ea) dst

/-- The kernel's aggregate. -/
def aggK (Vp : FVec F S50000x96 .f32) (Ep : FVec F S800000x96 .f32) (ea : FVec F S800000x4 .f32)
    (src dst : IVec S800000 32) : FVec F S50000x96 .f32 :=
  aggOf (taken Vp src) Ep ea dst

/-- The upper and the lower half of `W_w`. -/
def upper (Ww : FVec F S192x96 .f32) : FVec F S96x96 .f32 := extractStridedSlice S96x96 ![0, 0] Ww slices_S192x96_S96x96_0_0
def lower (Ww : FVec F S192x96 .f32) : FVec F S96x96 .f32 := extractStridedSlice S96x96 ![96, 0] Ww slices_S192x96_S96x96_96_0

/-! ## Each stretch read back over the contents it starts from -/

/-- The first stretch writes the hop weight's column. -/
theorem khop_eq (Wv : Valuation τ sig (Elt F)) :
    after hostOps2 Wv (main_v2 : DevRef τ sig) = khop (Wv (main_arg3 : DevRef τ sig)) := by
  after_results_simp
  rfl

-- the reduce and the gather stay folded while the two sides are compared: the equation never looks inside them
attribute [local irreducible] Host.reduce Host.gather in
/-- The second stretch writes the taken rows. -/
theorem taken_eq (Wv : Valuation τ sig (Elt F)) :
    after hostOps2_1 Wv (main_v3 : DevRef τ sig) = taken (Wv (main_v0 : DevRef τ sig)) (Wv (main_arg4 : DevRef τ sig)) := by
  after_results_simp
  rfl

/-- The third stretch writes the aggregate and the two halves of `W_w`. -/
theorem scatter_eq (Wv : Valuation τ sig (Elt F)) :
    after hostOps2_2 Wv (main_v9 : DevRef τ sig)
      = aggCore (Wv (main_v3 : DevRef τ sig)) (Wv (main_v1 : DevRef τ sig)) (Wv (main_v2 : DevRef τ sig))
          (Wv (main_arg5 : DevRef τ sig)) := by
  after_results_simp
  rfl

theorem upper22 (Wv : Valuation τ sig (Elt F)) :
    after hostOps2_2 Wv (main_v10 : DevRef τ sig) = upper (Wv (main_arg10 : DevRef τ sig)) := by
  after_results_simp
  rfl

theorem lower22 (Wv : Valuation τ sig (Elt F)) :
    after hostOps2_2 Wv (main_v11 : DevRef τ sig) = lower (Wv (main_arg10 : DevRef τ sig)) := by
  after_results_simp
  rfl

/-! ## What a stretch does not write it keeps -/

theorem keep0_v0 (Wv : Valuation τ sig (Elt F)) : after hostOps2 Wv (main_v0 : DevRef τ sig) = Wv (main_v0 : DevRef τ sig) := by
  after_results_simp
theorem keep0_v1 (Wv : Valuation τ sig (Elt F)) : after hostOps2 Wv (main_v1 : DevRef τ sig) = Wv (main_v1 : DevRef τ sig) := by
  after_results_simp
theorem keep0_arg4 (Wv : Valuation τ sig (Elt F)) : after hostOps2 Wv (main_arg4 : DevRef τ sig) = Wv (main_arg4 : DevRef τ sig) := by
  after_results_simp
theorem keep0_arg5 (Wv : Valuation τ sig (Elt F)) : after hostOps2 Wv (main_arg5 : DevRef τ sig) = Wv (main_arg5 : DevRef τ sig) := by
  after_results_simp
theorem keep0_arg10 (Wv : Valuation τ sig (Elt F)) : after hostOps2 Wv (main_arg10 : DevRef τ sig) = Wv (main_arg10 : DevRef τ sig) := by
  after_results_simp
theorem keep0_arg1 (Wv : Valuation τ sig (Elt F)) : after hostOps2 Wv (main_arg1 : DevRef τ sig) = Wv (main_arg1 : DevRef τ sig) := by
  after_results_simp
theorem keep0_arg11 (Wv : Valuation τ sig (Elt F)) : after hostOps2 Wv (main_arg11 : DevRef τ sig) = Wv (main_arg11 : DevRef τ sig) := by
  after_results_simp

theorem keep1_v1 (Wv : Valuation τ sig (Elt F)) : after hostOps2_1 Wv (main_v1 : DevRef τ sig) = Wv (main_v1 : DevRef τ sig) := by
  after_results_simp
theorem keep1_v2 (Wv : Valuation τ sig (Elt F)) : after hostOps2_1 Wv (main_v2 : DevRef τ sig) = Wv (main_v2 : DevRef τ sig) := by
  after_results_simp
theorem keep1_arg5 (Wv : Valuation τ sig (Elt F)) : after hostOps2_1 Wv (main_arg5 : DevRef τ sig) = Wv (main_arg5 : DevRef τ sig) := by
  after_results_simp
theorem keep1_arg10 (Wv : Valuation τ sig (Elt F)) : after hostOps2_1 Wv (main_arg10 : DevRef τ sig) = Wv (main_arg10 : DevRef τ sig) := by
  after_results_simp
theorem keep1_arg1 (Wv : Valuation τ sig (Elt F)) : after hostOps2_1 Wv (main_arg1 : DevRef τ sig) = Wv (main_arg1 : DevRef τ sig) := by
  after_results_simp
theorem keep1_arg11 (Wv : Valuation τ sig (Elt F)) : after hostOps2_1 Wv (main_arg11 : DevRef τ sig) = Wv (main_arg11 : DevRef τ sig) := by
  after_results_simp

theorem keep2_arg1 (Wv : Valuation τ sig (Elt F)) : after hostOps2_2 Wv (main_arg1 : DevRef τ sig) = Wv (main_arg1 : DevRef τ sig) := by
  after_results_simp
theorem keep2_arg11 (Wv : Valuation τ sig (Elt F)) : after hostOps2_2 Wv (main_arg11 : DevRef τ sig) = Wv (main_arg11 : DevRef τ sig) := by
  after_results_simp

/-! ## The three stretches in a row -/

/-- The three stretches, folded over the contents they start from. -/
abbrev afterMid (Wv : Valuation τ sig (Elt F)) : Valuation τ sig (Elt F) :=
  after hostOps2_2 (after hostOps2_1 (after hostOps2 Wv))

theorem agg_eq (Wv : Valuation τ sig (Elt F)) :
    afterMid Wv (main_v9 : DevRef τ sig)
      = aggK (Wv (main_v0 : DevRef τ sig)) (Wv (main_v1 : DevRef τ sig)) (Wv (main_arg3 : DevRef τ sig))
          (Wv (main_arg4 : DevRef τ sig)) (Wv (main_arg5 : DevRef τ sig)) := by
  show after hostOps2_2 (after hostOps2_1 (after hostOps2 Wv)) (main_v9 : DevRef τ sig) = _
  rw [scatter_eq, taken_eq, keep1_v1, keep1_v2, keep1_arg5, khop_eq, keep0_v0, keep0_arg4, keep0_v1, keep0_arg5]
  rfl

theorem upper_eq (Wv : Valuation τ sig (Elt F)) :
    afterMid Wv (main_v10 : DevRef τ sig) = upper (Wv (main_arg10 : DevRef τ sig)) := by
  show after hostOps2_2 (after hostOps2_1 (after hostOps2 Wv)) (main_v10 : DevRef τ sig) = _
  rw [upper22, keep1_arg10, keep0_arg10]

theorem lower_eq (Wv : Valuation τ sig (Elt F)) :
    afterMid Wv (main_v11 : DevRef τ sig) = lower (Wv (main_arg10 : DevRef τ sig)) := by
  show after hostOps2_2 (after hostOps2_1 (after hostOps2 Wv)) (main_v11 : DevRef τ sig) = _
  rw [lower22, keep1_arg10, keep0_arg10]

theorem vin_eq (Wv : Valuation τ sig (Elt F)) :
    afterMid Wv (main_arg1 : DevRef τ sig) = Wv (main_arg1 : DevRef τ sig) := by
  show after hostOps2_2 (after hostOps2_1 (after hostOps2 Wv)) (main_arg1 : DevRef τ sig) = _
  rw [keep2_arg1, keep1_arg1, keep0_arg1]

theorem wb_eq (Wv : Valuation τ sig (Elt F)) :
    afterMid Wv (main_arg11 : DevRef τ sig) = Wv (main_arg11 : DevRef τ sig) := by
  show after hostOps2_2 (after hostOps2_1 (after hostOps2 Wv)) (main_arg11 : DevRef τ sig) = _
  rw [keep2_arg11, keep1_arg11, keep0_arg11]

end Cert.KernelIdeal.Mid

end
-- ==== Proof.KernelValue.lean ====
/-
  The idealized kernel's result as one function of its arguments.

  The frame holds the buffer contents at every boundary as a fold from the launch memory. Unwound at the result buffer:
  the output region's array is the output row function of the aggregate and of `V_in` as that region finds them; the
  aggregate is the host stretch's term of the two projections' arrays and of `edge_attr`, `src`, `dst`; the edge
  projection's array is the edge row function of `E`, `M_w`, `M_b` as the second region finds them, which is as
  launched since the first region writes none of them; the node projection's array is the node row function of the
  launch contents of `V`, `A_w`, `A_b`. No region and no host operation writes an argument.
-/
import proofs.«421761_j58368605552696_2_alg».proof.Proof.Gen.KernelIdeal.Frame
import proofs.«421761_j58368605552696_2_alg».proof.Proof.NodeArr
import proofs.«421761_j58368605552696_2_alg».proof.Proof.EdgeArr
import proofs.«421761_j58368605552696_2_alg».proof.Proof.OutArr
import proofs.«421761_j58368605552696_2_alg».proof.Proof.KernelMid

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's result from the launch contents of its twelve arguments. -/
def out (V Vin : FVec Ideal S50000x96 .f32) (E : FVec Ideal S800000x96 .f32) (ea : FVec Ideal S800000x4 .f32)
    (src dst : IVec S800000 32) (Aw : FVec Ideal S96x96 .f32) (Ab : FVec Ideal S96 .f32) (Mw : FVec Ideal S96x96 .f32)
    (Mb : FVec Ideal S96 .f32) (Ww : FVec Ideal S192x96 .f32) (Wb : FVec Ideal S96 .f32) : FVec Ideal S50000x96 .f32 :=
  Cert.Spec.outArr (Mid.aggK (Cert.Spec.nodeArr V Aw Ab) (Cert.Spec.edgeArr E Mw Mb) ea src dst) Vin (Mid.upper Ww) (Mid.lower Ww) Wb

/-- A buffer neither projection region touches holds its launch contents when the host stretch starts. -/
theorem W2_launch (c : Dev nD) (b : Ref sig .tc) (h1 : ∀ w, Pipeline.arrRef spec1 w ≠ b) (h0 : ∀ w, Pipeline.arrRef spec0 w ≠ b) :
    W2 m ρ c (Proc.devRef .tc b) = m ((c : Thread nD τ).loc b) :=
  (W2_of_ne m ρ c b h1).trans ((W1_of_ne m ρ c b h0).trans rfl)

/-- The node projection's array when the host stretch starts. -/
theorem W2_node (c : Dev nD) :
    W2 m ρ c (Proc.devRef .tc main_v0)
      = Cert.Spec.nodeArr (m ((c : Thread nD τ).loc main_arg0)) (m ((c : Thread nD τ).loc main_arg6)) (m ((c : Thread nD τ).loc main_arg7)) :=
  (W2_of_ne m ρ c main_v0 (by decide)).trans ((W1_arr m ρ c 3).trans (NodeArr.arr (V0 m ρ) c))

/-- The edge projection's array when the host stretch starts. -/
theorem W2_edge (c : Dev nD) :
    W2 m ρ c (Proc.devRef .tc main_v1)
      = Cert.Spec.edgeArr (m ((c : Thread nD τ).loc main_arg2)) (m ((c : Thread nD τ).loc main_arg8)) (m ((c : Thread nD τ).loc main_arg9)) := by
  refine (W2_arr m ρ c 3).trans ((EdgeArr.arr (V1 m ρ) c).trans ?_)
  unfold EdgeArr.G Cert.Spec.edgeArr
  have e2 : V1 m ρ c main_arg2 = m ((c : Thread nD τ).loc main_arg2) := (W1_of_ne m ρ c main_arg2 (by decide)).trans rfl
  have e8 : V1 m ρ c main_arg8 = m ((c : Thread nD τ).loc main_arg8) := (W1_of_ne m ρ c main_arg8 (by decide)).trans rfl
  have e9 : V1 m ρ c main_arg9 = m ((c : Thread nD τ).loc main_arg9) := (W1_of_ne m ρ c main_arg9 (by decide)).trans rfl
  rw [e2, e8, e9]

/-- The result buffer at the last boundary is `out` of the launch contents. -/
theorem result (c : Dev nD) :
    W6 m ρ c (Proc.devRef .tc main_v12)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (W6_arr m ρ c 5).trans ((OutArr.arr (V5 m ρ) c).trans ?_)
  unfold OutArr.G out Cert.Spec.outArr
  have e9 : V5 m ρ c main_v9 = Mid.aggK (F := Ideal) (W2 m ρ c (Proc.devRef .tc main_v0)) (W2 m ρ c (Proc.devRef .tc main_v1))
      (W2 m ρ c (Proc.devRef .tc main_arg3)) (W2 m ρ c (Proc.devRef .tc main_arg4)) (W2 m ρ c (Proc.devRef .tc main_arg5)) := by
    show Mid.afterMid (W2 m ρ c) (Proc.devRef .tc main_v9) = _
    exact Mid.agg_eq (W2 m ρ c)
  have e1 : V5 m ρ c main_arg1 = W2 m ρ c (Proc.devRef .tc main_arg1) := by
    show Mid.afterMid (W2 m ρ c) (Proc.devRef .tc main_arg1) = _
    exact Mid.vin_eq (W2 m ρ c)
  have e10 : V5 m ρ c main_v10 = Mid.upper (F := Ideal) (W2 m ρ c (Proc.devRef .tc main_arg10)) := by
    show Mid.afterMid (W2 m ρ c) (Proc.devRef .tc main_v10) = _
    exact Mid.upper_eq (W2 m ρ c)
  have e11 : V5 m ρ c main_v11 = Mid.lower (F := Ideal) (W2 m ρ c (Proc.devRef .tc main_arg10)) := by
    show Mid.afterMid (W2 m ρ c) (Proc.devRef .tc main_v11) = _
    exact Mid.lower_eq (W2 m ρ c)
  have eb : V5 m ρ c main_arg11 = W2 m ρ c (Proc.devRef .tc main_arg11) := by
    show Mid.afterMid (W2 m ρ c) (Proc.devRef .tc main_arg11) = _
    exact Mid.wb_eq (W2 m ρ c)
  rw [e9, e1, e10, e11, eb, W2_node, W2_edge,
    W2_launch m ρ c main_arg3 (by decide) (by decide), W2_launch m ρ c main_arg4 (by decide) (by decide),
    W2_launch m ρ c main_arg5 (by decide) (by decide), W2_launch m ρ c main_arg1 (by decide) (by decide),
    W2_launch m ρ c main_arg10 (by decide) (by decide), W2_launch m ρ c main_arg11 (by decide) (by decide)]

end Cert.KernelIdeal.KVal

end
-- ==== Proof.RefRun.lean ====
/-
  The reference program's run, read back.

  The reference is host operations only: a leaky rectifier of the node features (a compare against zero, the product
  with 0.2, a select), the node projection (a matrix product with `A_w`, the bias broadcast over rows, a maximum with
  zero), the edge projection (a matrix product with `M_w` plus its bias), the hop weight (column 1 of `edge_attr`),
  the source index with negatives wrapped by the node count, the gather of projected source rows, the message
  `(Vp[src] + Ep) * khop`, its scatter-add over destination rows into zeros, the concatenation with `V_in`, the output
  projection with `W_w` plus bias, and a last maximum with zero. Listed here in @main's order, the three
  outlined functions' operations at their call sites; every weakly fair execution ends with the result buffer at the
  composed term `out` of the argument arrays, the arguments unchanged.
-/
import proofs.«421761_j58368605552696_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Negative indices wrapped by the number of nodes, as jnp's indexing does before the gather. -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The zero array a maximum and the scatter start from. -/
def zeros : FVec F S50000x96 .f32 := broadcastInDim S50000x96 ![] bcast_S_S50000x96 (constant S_ .f32 0x00000000#32)

/-- The projected node features: `max (leaky(V) · A_w + A_b) 0`. -/
def nodeProj (V : FVec F S50000x96 .f32) (Aw : FVec F S96x96 .f32) (Ab : FVec F S96 .f32) : FVec F S50000x96 .f32 :=
  maximumf
    (addf
      (Host.dotGeneral dot_S50000x96_S96x96_S50000x96_1_0_0_1_n_n none
        (select (cmpf .oge V zeros) V
          (mulf (broadcastInDim S50000x96 ![] bcast_S_S50000x96 (id (constant S_ .f32 0x3E4CCCCD#32))) V)) Aw)
      (broadcastInDim S50000x96 ![0, 1] bcast_S1x96_S50000x96_0_1 (broadcastInDim S1x96 ![1] bcast_S96_S1x96_1 Ab)))
    zeros

/-- The projected edge features: `E · M_w + M_b`. -/
def edgeProj (E : FVec F S800000x96 .f32) (Mw : FVec F S96x96 .f32) (Mb : FVec F S96 .f32) : FVec F S800000x96 .f32 :=
  addf (Host.dotGeneral dot_S800000x96_S96x96_S800000x96_1_0_0_1_n_n none E Mw)
    (broadcastInDim S800000x96 ![0, 1] bcast_S1x96_S800000x96_0_1 (broadcastInDim S1x96 ![1] bcast_S96_S1x96_1 Mb))

/-- The aggregate: messages `(Vp[src] + Ep) * khop` summed into their destination rows. -/
def aggregate (Vp : FVec F S50000x96 .f32) (Ep : FVec F S800000x96 .f32) (ea : FVec F S800000x4 .f32)
    (src dst : IVec S800000 32) : FVec F S50000x96 .f32 :=
  Host.scatterAdd scatter_S50000x96_S800000x1_S800000x96_1_0_0_1 zeros
    (broadcastInDim S800000x1 ![0] bcast_S800000_S800000x1_0 dst)
    (mulf
      (addf
        (Host.gather gather_S50000x96_S800000x1_S800000x96_1_0_n_n_0_1_196 Vp
          (broadcastInDim S800000x1 ![0] bcast_S800000_S800000x1_0 (wrapIdx src)))
        Ep)
      (broadcastInDim S800000x96 ![0, 1] bcast_S800000x1_S800000x96_0_1
        (extractStridedSlice S800000x1 ![0, 1] ea slices_S800000x4_S800000x1_0_1)))

/-- The result: `max ([agg, V_in] · W_w + W_b) 0`. -/
def outProj (agg Vin : FVec F S50000x96 .f32) (Ww : FVec F S192x96 .f32) (Wb : FVec F S96 .f32) : FVec F S50000x96 .f32 :=
  maximumf
    (addf
      (Host.dotGeneral dot_S50000x192_S192x96_S50000x96_1_0_0_1_n_n none
        (concatenate S50000x192 1 [⟨S50000x96, agg⟩, ⟨S50000x96, Vin⟩] concatenates_S50000x96_S50000x96_S50000x192_d1) Ww)
      (broadcastInDim S50000x96 ![0, 1] bcast_S1x96_S50000x96_0_1 (broadcastInDim S1x96 ![1] bcast_S96_S1x96_1 Wb)))
    zeros

/-- The reference's result as one term of its twelve argument arrays. -/
def out (V Vin : FVec F S50000x96 .f32) (E : FVec F S800000x96 .f32) (ea : FVec F S800000x4 .f32)
    (src dst : IVec S800000 32) (Aw : FVec F S96x96 .f32) (Ab : FVec F S96 .f32) (Mw : FVec F S96x96 .f32)
    (Mb : FVec F S96 .f32) (Ww : FVec F S192x96 .f32) (Wb : FVec F S96 .f32) : FVec F S50000x96 .f32 :=
  outProj (aggregate (nodeProj V Aw Ab) (edgeProj E Mw Mb) ea src dst) Vin Ww Wb

/-- @main's 44 operations, in order, the outlined functions' at their call sites. -/
abbrev ops : List (HloOp τ sig (Elt F)) :=
  [ nullary main_cst (constant S_ .f32 0x3E4CCCCD#32),
    TRef.nullary main_call0.cst (constant S_ .f32 0x00000000#32),
    TRef.unary main_call0.cst main_call0.v0 (broadcastInDim S50000x96 ![] bcast_S_S50000x96),
    TRef.binary (.of main_arg0) main_call0.v0 main_call0.v1 (cmpf .oge),
    TRef.unary (.of main_cst) main_call0.v2 id,
    TRef.unary main_call0.v2 main_call0.v3 (broadcastInDim S50000x96 ![] bcast_S_S50000x96),
    TRef.binary main_call0.v3 (.of main_arg0) main_call0.v4 mulf,
    TRef.ternary main_call0.v1 (.of main_arg0) main_call0.v4 main_call0.call0.v0 select,
    binary main_v0 main_arg6 main_v1 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg7 main_v2 (broadcastInDim S1x96 ![1] bcast_S96_S1x96_1 : (⟨S96, .f32⟩ : BufTy).Contents (Elt F) → (⟨S1x96, .f32⟩ : BufTy).Contents (Elt F)),
    unary main_v2 main_v3 (broadcastInDim S50000x96 ![0, 1] bcast_S1x96_S50000x96_0_1 : (⟨S1x96, .f32⟩ : BufTy).Contents (Elt F) → (⟨S50000x96, .f32⟩ : BufTy).Contents (Elt F)),
    binary main_v1 main_v3 main_v4 (addf : (⟨S50000x96, .f32⟩ : BufTy).Contents (Elt F) → (⟨S50000x96, .f32⟩ : BufTy).Contents (Elt F) → (⟨S50000x96, .f32⟩ : BufTy).Contents (Elt F)),
    TRef.nullary main_call1.cst (constant S_ .f32 0x00000000#32),
    TRef.unary main_call1.cst main_call1.v0 (broadcastInDim S50000x96 ![] bcast_S_S50000x96),
    TRef.binary (.of main_v4) main_call1.v0 main_call1.v1 maximumf,
    binary main_arg2 main_arg8 main_v6 ((fun l r => Host.dotGeneral dot_S800000x96_S96x96_S800000x96_1_0_0_1_n_n none l r) : (⟨S800000x96, .f32⟩ : BufTy).Contents (Elt F) → (⟨S96x96, .f32⟩ : BufTy).Contents (Elt F) → (⟨S800000x96, .f32⟩ : BufTy).Contents (Elt F)),
    unary main_arg9 main_v7 (broadcastInDim S1x96 ![1] bcast_S96_S1x96_1 : (⟨S96, .f32⟩ : BufTy).Contents (Elt F) → (⟨S1x96, .f32⟩ : BufTy).Contents (Elt F)),
    unary main_v7 main_v8 (broadcastInDim S800000x96 ![0, 1] bcast_S1x96_S800000x96_0_1 : (⟨S1x96, .f32⟩ : BufTy).Contents (Elt F) → (⟨S800000x96, .f32⟩ : BufTy).Contents (Elt F)),
    binary main_v6 main_v8 main_v9 (addf : (⟨S800000x96, .f32⟩ : BufTy).Contents (Elt F) → (⟨S800000x96, .f32⟩ : BufTy).Contents (Elt F) → (⟨S800000x96, .f32⟩ : BufTy).Contents (Elt F)),
    unary main_arg3 main_v10 ((extractStridedSlice S800000x1 ![0, 1] · slices_S800000x4_S800000x1_0_1) : (⟨S800000x4, .f32⟩ : BufTy).Contents (Elt F) → (⟨S800000x1, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_arg4 main_v11 main_v12 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v13 (broadcastInDim S800000 ![] bcast_S_S800000 : (⟨S_, .i32⟩ : BufTy).Contents (Elt F) → (⟨S800000, .i32⟩ : BufTy).Contents (Elt F)),
    binary main_arg4 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_arg4 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v5 main_v16 main_v17 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    binary main_v17 main_v9 main_v18 (addf : (⟨S800000x96, .f32⟩ : BufTy).Contents (Elt F) → (⟨S800000x96, .f32⟩ : BufTy).Contents (Elt F) → (⟨S800000x96, .f32⟩ : BufTy).Contents (Elt F)),
    unary main_v10 main_v19 (broadcastInDim S800000x96 ![0, 1] bcast_S800000x1_S800000x96_0_1 : (⟨S800000x1, .f32⟩ : BufTy).Contents (Elt F) → (⟨S800000x96, .f32⟩ : BufTy).Contents (Elt F)),
    binary main_v18 main_v19 main_v20 (mulf : (⟨S800000x96, .f32⟩ : BufTy).Contents (Elt F) → (⟨S800000x96, .f32⟩ : BufTy).Contents (Elt F) → (⟨S800000x96, .f32⟩ : BufTy).Contents (Elt F)),
    nullary main_cst_1 (constant S_ .f32 0x00000000#32),
    unary main_cst_1 main_v21 (broadcastInDim S50000x96 ![] bcast_S_S50000x96 : (⟨S_, .f32⟩ : BufTy).Contents (Elt F) → (⟨S50000x96, .f32⟩ : BufTy).Contents (Elt F)),
    unary main_arg5 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v23 main_arg1 main_v24 ((fun a b => concatenate S50000x192 1 [⟨S50000x96, a⟩, ⟨S50000x96, b⟩] concatenates_S50000x96_S50000x96_S50000x192_d1) : (⟨S50000x96, .f32⟩ : BufTy).Contents (Elt F) → (⟨S50000x96, .f32⟩ : BufTy).Contents (Elt F) → (⟨S50000x192, .f32⟩ : BufTy).Contents (Elt F)),
    binary main_v24 main_arg10 main_v25 ((fun l r => Host.dotGeneral dot_S50000x192_S192x96_S50000x96_1_0_0_1_n_n none l r) : (⟨S50000x192, .f32⟩ : BufTy).Contents (Elt F) → (⟨S192x96, .f32⟩ : BufTy).Contents (Elt F) → (⟨S50000x96, .f32⟩ : BufTy).Contents (Elt F)),
    unary main_arg11 main_v26 (broadcastInDim S1x96 ![1] bcast_S96_S1x96_1 : (⟨S96, .f32⟩ : BufTy).Contents (Elt F) → (⟨S1x96, .f32⟩ : BufTy).Contents (Elt F)),
    unary main_v26 main_v27 (broadcastInDim S50000x96 ![0, 1] bcast_S1x96_S50000x96_0_1 : (⟨S1x96, .f32⟩ : BufTy).Contents (Elt F) → (⟨S50000x96, .f32⟩ : BufTy).Contents (Elt F)),
    binary main_v25 main_v27 main_v28 (addf : (⟨S50000x96, .f32⟩ : BufTy).Contents (Elt F) → (⟨S50000x96, .f32⟩ : BufTy).Contents (Elt F) → (⟨S50000x96, .f32⟩ : BufTy).Contents (Elt F)),
    TRef.nullary main_call2.cst (constant S_ .f32 0x00000000#32),
    TRef.unary main_call2.cst main_call2.v0 (broadcastInDim S50000x96 ![] bcast_S_S50000x96),
    TRef.binary (.of main_v28) main_call2.v0 main_call2.v1 maximumf ]

-- the binds re-associated: the rewrite under the chain recurses once per statement
set_option maxRecDepth 2048 in
/-- @main is that straight line: the outlined functions unfolded at their calls, sequencing reassociated. -/
theorem main_eq (c : Dev nD) : main (F := F) c = seq ops := by
  simp only [main, fn_leaky_relu.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    unary_bufs_sub .., binary_bufs_sub ..⟩

/-- Every TensorCore buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold at the result buffer is `out` of the launch contents of the twelve arguments. -/
theorem out_eq (V : Valuation τ sig (Elt F)) :
    after ops V (main_v29 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  after_results_simp
  rfl

/-! ## No operation writes an argument -/

theorem keep_arg0 (V : Valuation τ sig (Elt F)) : after ops V (main_arg0 : DevRef τ sig) = V (main_arg0 : DevRef τ sig) := by
  after_results_simp
theorem keep_arg1 (V : Valuation τ sig (Elt F)) : after ops V (main_arg1 : DevRef τ sig) = V (main_arg1 : DevRef τ sig) := by
  after_results_simp
theorem keep_arg2 (V : Valuation τ sig (Elt F)) : after ops V (main_arg2 : DevRef τ sig) = V (main_arg2 : DevRef τ sig) := by
  after_results_simp
theorem keep_arg3 (V : Valuation τ sig (Elt F)) : after ops V (main_arg3 : DevRef τ sig) = V (main_arg3 : DevRef τ sig) := by
  after_results_simp
theorem keep_arg4 (V : Valuation τ sig (Elt F)) : after ops V (main_arg4 : DevRef τ sig) = V (main_arg4 : DevRef τ sig) := by
  after_results_simp
theorem keep_arg5 (V : Valuation τ sig (Elt F)) : after ops V (main_arg5 : DevRef τ sig) = V (main_arg5 : DevRef τ sig) := by
  after_results_simp
theorem keep_arg6 (V : Valuation τ sig (Elt F)) : after ops V (main_arg6 : DevRef τ sig) = V (main_arg6 : DevRef τ sig) := by
  after_results_simp
theorem keep_arg7 (V : Valuation τ sig (Elt F)) : after ops V (main_arg7 : DevRef τ sig) = V (main_arg7 : DevRef τ sig) := by
  after_results_simp
theorem keep_arg8 (V : Valuation τ sig (Elt F)) : after ops V (main_arg8 : DevRef τ sig) = V (main_arg8 : DevRef τ sig) := by
  after_results_simp
theorem keep_arg9 (V : Valuation τ sig (Elt F)) : after ops V (main_arg9 : DevRef τ sig) = V (main_arg9 : DevRef τ sig) := by
  after_results_simp
theorem keep_arg10 (V : Valuation τ sig (Elt F)) : after ops V (main_arg10 : DevRef τ sig) = V (main_arg10 : DevRef τ sig) := by
  after_results_simp
theorem keep_arg11 (V : Valuation τ sig (Elt F)) : after ops V (main_arg11 : DevRef τ sig) = V (main_arg11 : DevRef τ sig) := by
  after_results_simp

/-- Every weakly fair execution of the reference terminates with the result at `out` of the launch contents of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v29).trans (out_eq _),
      (h c main_arg0).trans (keep_arg0 _), (h c main_arg1).trans (keep_arg1 _), (h c main_arg2).trans (keep_arg2 _),
      (h c main_arg3).trans (keep_arg3 _), (h c main_arg4).trans (keep_arg4 _), (h c main_arg5).trans (keep_arg5 _),
      (h c main_arg6).trans (keep_arg6 _), (h c main_arg7).trans (keep_arg7 _), (h c main_arg8).trans (keep_arg8 _),
      (h c main_arg9).trans (keep_arg9 _), (h c main_arg10).trans (keep_arg10 _), (h c main_arg11).trans (keep_arg11 _)⟩)
    (run_all m ρ)

end Cert.ReferenceIdeal.RefRun

end
-- ==== Proof.PreSrc.lean ====
/-
  The precondition's last conjunct, read at an edge.

  The precondition is a conjunction of `all`-reductions; its last conjunct is the `all` over the 800000 edges of
  `-50000 ≤ src ∧ src < 50000` (signed compares of 32-bit words). A conjunction of bits that is set has both bits set,
  and an and-reduce that is set has every reduced bit set, so at every edge both compares hold.
-/
import proofs.«421761_j58368605552696_2_alg».proof.Proof.Gen.Pre_finite_inputs
import Idealize.ShloMosaic.Lib.ReduceAll
import Idealize.ShloMosaic.Lib.ValueIdx

namespace Cert.Pre_finite_inputs.Src

open Cert.Pre_finite_inputs Cert.Pre_finite_inputs.Gen Idealize.ShloMosaic

instance : Subsingleton S_.Idx := ⟨fun a b => funext fun d => d.elim0⟩

variable {F : FTy → Type} [FloatOps F]

/-- Where the precondition holds, every source index lies in `[-50000, 50000)`. -/
theorem src_range (a0 a1 : FVec F S50000x96 .f32) (a2 : FVec F S800000x96 .f32) (a3 : FVec F S800000x4 .f32)
    (a4 a5 : IVec S800000 32) (a6 : FVec F S96x96 .f32) (a7 : FVec F S96 .f32) (a8 : FVec F S96x96 .f32)
    (a9 : FVec F S96 .f32) (a10 : FVec F S192x96 .f32) (a11 : FVec F S96 .f32)
    (h : fn (F := F) a0 a1 a2 a3 a4 a5 a6 a7 a8 a9 a10 a11 = fun _ => 1#1) (e : S800000.Idx) :
    IntOp.cmpi .sge (a4 e) 4294917296#32 = 1#1 ∧ IntOp.cmpi .slt (a4 e) 50000#32 = 1#1 := by
  have h0 := congrFun h ValueIdx.ix0
  dsimp only [fn, fn_part1, fn_part2, fn_part3] at h0
  obtain ⟨-, hall⟩ := IntOp.andi_eq_one.1 h0
  have he := Host.reduce_andi_all _ _ _ _ _ hall e
  obtain ⟨h1, h2⟩ := IntOp.andi_eq_one.1 he
  exact ⟨h1, h2⟩

end Cert.Pre_finite_inputs.Src
-- ==== Proof.RefValue.lean ====
/-
  The reference's three dense stages, read at an index.

  At the extended reals the host's `dot_general` at `(p, q)` is the sum over the contracted axis of row entry times
  column entry; a bias broadcast `[96] → [1, 96] → [n, 96]` reads the bias at the column; a scalar broadcast reads the
  scalar. So the node projection's term is the node row function of each entry's row, and the edge projection's the edge
  row function. For the output projection the left operand is the concatenation `[agg, V_in]` along the columns: the
  sum over its 192 columns splits into the first 96 (where it reads `agg` against the upper half of `W_w`) and the last
  96 (where it reads `V_in` against the lower half). Splitting a finite sum uses only that addition is commutative and
  associative, which holds on the extended reals at the infinities too.
-/
import proofs.«421761_j58368605552696_2_alg».proof.Proof.RefRun
import proofs.«421761_j58368605552696_2_alg».proof.Proof.Spec
import proofs.«421761_j58368605552696_2_alg».proof.Proof.LibPlainDot
import Idealize.ShloMosaic.PureOps.Ideal.Laws
import Idealize.ShloMosaic.Lib.ValueLayout
import Idealize.ShloMosaic.Lib.Pipeline.Value
import Idealize.ShloMosaic.Lib.StableHlo.Predicate

noncomputable section

namespace Cert.ReferenceIdeal.RefVal

open Cert.ReferenceIdeal Cert.ReferenceIdeal.Gen Cert.ReferenceIdeal.RefRun Idealize.ShloMosaic Idealize.ShloMosaic.ValueIdx

/-- The two spellings of a rank-2 index from its coordinates agree. -/
theorem ix2_eq_ij {n m : Nat} (p : Fin n) (q : Fin m) : ix2 p q = StableHlo.Predicate.ij p q :=
  funext fun a => match a with | ⟨0, _⟩ => rfl | ⟨1, _⟩ => rfl

/-- A bias broadcast to one row and then over `n` rows reads, at `(p, q)`, the bias at `q`. -/
theorem biasRows {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → EReal) (p : Fin n) (q : Fin m) :
    broadcastInDim ⟨2, ![n, m]⟩ ![0, 1] h₂ (broadcastInDim ⟨2, ![1, m]⟩ ![1] h₁ v) (ix2 p q) = v (ix1 q) := by
  rw [ix2_eq_ij]
  refine (StableHlo.Predicate.bcast_cols h₁ h₂ v p q).trans (congrArg v ?_)
  funext a
  match a with
  | ⟨0, _⟩ => rfl

/-- The three products at `(p, q)`: row `p` against column `q`. -/
theorem dotNode (a : FVec Ideal S50000x96 .f32) (b : FVec Ideal S96x96 .f32) (p : Fin 50000) (q : Fin 96) :
    Host.dotGeneral dot_S50000x96_S96x96_S50000x96_1_0_0_1_n_n none a b (ix2 p q) = ∑ k : Fin 96, a (ix2 p k) * b (ix2 k q) :=
  (Ideal.dotGeneral_apply _ none .single a b (ix2 p q)).trans
    (Cert.Lib.PlainDot.sum_eq (M := 50000) (K := 96) (N := 96) a b (ix2 p q))

theorem dotEdge (a : FVec Ideal S800000x96 .f32) (b : FVec Ideal S96x96 .f32) (p : Fin 800000) (q : Fin 96) :
    Host.dotGeneral dot_S800000x96_S96x96_S800000x96_1_0_0_1_n_n none a b (ix2 p q) = ∑ k : Fin 96, a (ix2 p k) * b (ix2 k q) :=
  (Ideal.dotGeneral_apply _ none .single a b (ix2 p q)).trans
    (Cert.Lib.PlainDot.sum_eq (M := 800000) (K := 96) (N := 96) a b (ix2 p q))

theorem dotOut (a : FVec Ideal S50000x192 .f32) (b : FVec Ideal S192x96 .f32) (p : Fin 50000) (q : Fin 96) :
    Host.dotGeneral dot_S50000x192_S192x96_S50000x96_1_0_0_1_n_n none a b (ix2 p q) = ∑ k : Fin 192, a (ix2 p k) * b (ix2 k q) :=
  (Ideal.dotGeneral_apply _ none .single a b (ix2 p q)).trans
    (Cert.Lib.PlainDot.sum_eq (M := 50000) (K := 192) (N := 96) a b (ix2 p q))

/-- The node projection's term is the node row function of each entry's row. -/
theorem node_eq (V : FVec Ideal S50000x96 .f32) (Aw : FVec Ideal S96x96 .f32) (Ab : FVec Ideal S96 .f32) :
    nodeProj (F := Ideal) V Aw Ab = Cert.Spec.nodeArr V Aw Ab := by
  funext i
  obtain ⟨p, q, rfl⟩ : ∃ (p : Fin 50000) (q : Fin 96), i = ix2 p q := ⟨i 0, i 1, eq_ix2 i⟩
  unfold nodeProj Cert.Spec.nodeArr Cert.Spec.rowNode
  simp only [maximumf_apply, addf_apply]
  rw [dotNode, biasRows]
  rfl

/-- The edge projection's term is the edge row function of each entry's row. -/
theorem edge_eq (E : FVec Ideal S800000x96 .f32) (Mw : FVec Ideal S96x96 .f32) (Mb : FVec Ideal S96 .f32) :
    edgeProj (F := Ideal) E Mw Mb = Cert.Spec.edgeArr E Mw Mb := by
  funext i
  obtain ⟨p, q, rfl⟩ : ∃ (p : Fin 800000) (q : Fin 96), i = ix2 p q := ⟨i 0, i 1, eq_ix2 i⟩
  unfold edgeProj Cert.Spec.edgeArr Cert.Spec.rowEdge
  simp only [addf_apply]
  rw [dotEdge, biasRows]

/-- The concatenation `[agg, V_in]` at a column of the first half reads `agg`; of the second half, `V_in`. -/
theorem cat_left (agg Vin : FVec Ideal S50000x96 .f32) (p : Fin 50000) (k : Fin 96) :
    concatenate S50000x192 1 [⟨S50000x96, agg⟩, ⟨S50000x96, Vin⟩] concatenates_S50000x96_S50000x96_S50000x192_d1
        (ix2 p (Fin.castAdd 96 k)) = agg (ix2 p k) :=
  concatenate_pair_apply_left (t := S50000x192) 1 agg Vin concatenates_S50000x96_S50000x96_S50000x192_d1
    (ix2 p (Fin.castAdd 96 k)) rfl (ix2 p k) fun b => by
    match b with
    | ⟨0, _⟩ => rfl
    | ⟨1, _⟩ => rfl

theorem cat_right (agg Vin : FVec Ideal S50000x96 .f32) (p : Fin 50000) (k : Fin 96) :
    concatenate S50000x192 1 [⟨S50000x96, agg⟩, ⟨S50000x96, Vin⟩] concatenates_S50000x96_S50000x96_S50000x192_d1
        (ix2 p (Fin.natAdd 96 k)) = Vin (ix2 p k) :=
  concatenate_pair_apply_right (t := S50000x192) 1 agg Vin concatenates_S50000x96_S50000x96_S50000x192_d1
    (ix2 p (Fin.natAdd 96 k)) rfl rfl (ix2 p k)
    (fun b hb => by
      match b with
      | ⟨0, _⟩ => rfl
      | ⟨1, _⟩ => exact absurd rfl hb)
    (by show k.val + 96 = 96 + k.val; omega)

/-- The output projection's term is the output row function of each entry's aggregate and feature rows, for the two
    halves `W1`, `W2` of `W_w`. -/
theorem out_eq (agg Vin : FVec Ideal S50000x96 .f32) (Ww : FVec Ideal S192x96 .f32) (Wb : FVec Ideal S96 .f32)
    (W1 W2 : Cert.Spec.Mat) (h1 : ∀ (k q : Fin 96), W1 (ix2 k q) = Ww (ix2 (Fin.castAdd 96 k) q))
    (h2 : ∀ (k q : Fin 96), W2 (ix2 k q) = Ww (ix2 (Fin.natAdd 96 k) q)) :
    outProj (F := Ideal) agg Vin Ww Wb = Cert.Spec.outArr agg Vin W1 W2 Wb := by
  funext i
  obtain ⟨p, q, rfl⟩ : ∃ (p : Fin 50000) (q : Fin 96), i = ix2 p q := ⟨i 0, i 1, eq_ix2 i⟩
  unfold outProj Cert.Spec.outArr Cert.Spec.rowOut
  simp only [maximumf_apply, addf_apply]
  rw [dotOut, biasRows]
  have hs : (∑ k : Fin 192,
        concatenate S50000x192 1 [⟨S50000x96, agg⟩, ⟨S50000x96, Vin⟩] concatenates_S50000x96_S50000x96_S50000x192_d1 (ix2 p k)
          * Ww (ix2 k q))
      = (∑ k : Fin 96, agg (ix2 p k) * W1 (ix2 k q)) + ∑ k : Fin 96, Vin (ix2 p k) * W2 (ix2 k q) := by
    refine (Fin.sum_univ_add (M := EReal) (a := 96) (b := 96) (fun k =>
      concatenate S50000x192 1 [⟨S50000x96, agg⟩, ⟨S50000x96, Vin⟩] concatenates_S50000x96_S50000x96_S50000x192_d1 (ix2 p k)
        * Ww (ix2 k q))).trans ?_
    simp only [cat_left, cat_right, h1, h2]
  rw [hs]
  rfl

end Cert.ReferenceIdeal.RefVal

end
-- ==== Proof.SrcRange.lean ====
/-
  The source index as 32-bit words: wrapping a negative index by the node count, and the range mask.

  jnp wraps a negative index `s` to `s + 50000` and leaves the others. For `-50000 ≤ s < 50000` (signed) the wrapped
  word lies in `[0, 49999]`: a negative `s` gives `s + 50000` without overflow, since `0 ≤ s + 50000 < 50000`. So the
  mask `0 ≤ w ∧ w ≤ 49999` that guards the gather is set on every row, and an and-reduce of bits that are all set, from
  a set initial bit, is set.
-/
import Idealize.ShloMosaic.PureOps
import Idealize.ShloMosaic.Lib.ReduceAll

namespace Cert.SrcRange

open Idealize.ShloMosaic

/-- A negative index wrapped by the node count 50000; the others as they are. -/
def wrapW (s : BitVec 32) : BitVec 32 := Scalar.select (IntOp.cmpi .slt s 0#32) (IntOp.addi s 50000#32) s

theorem toInt_m50000 : (4294917296#32 : BitVec 32).toInt = -50000 := by decide
theorem toInt_50000 : (50000#32 : BitVec 32).toInt = 50000 := by decide
theorem toInt_0 : (0#32 : BitVec 32).toInt = 0 := by decide
theorem toInt_49999 : (49999#32 : BitVec 32).toInt = 49999 := by decide

/-- A negative `s ≥ -50000` plus 50000 is in `[0, 49999]`: the sum does not overflow. -/
theorem range_neg (s : BitVec 32) (hlo : (4294917296#32 : BitVec 32).sle s = true) (hneg : s.slt 0#32 = true) :
    (0#32 : BitVec 32).sle (s + 50000#32) = true ∧ (s + 50000#32).sle 49999#32 = true := by
  simp only [BitVec.sle, BitVec.slt, decide_eq_true_eq] at *
  rw [toInt_m50000] at hlo
  rw [toInt_0] at hneg
  rw [toInt_0, toInt_49999, BitVec.toInt_add, toInt_50000]
  have hb : (s.toInt + 50000).bmod (2 ^ 32) = s.toInt + 50000 := by
    apply Int.bmod_eq_of_le <;> omega
  rw [hb]; omega

/-- A non-negative `s < 50000` is in `[0, 49999]`. -/
theorem range_nonneg (s : BitVec 32) (hhi : s.slt 50000#32 = true) (hneg : s.slt 0#32 = false) :
    (0#32 : BitVec 32).sle s = true ∧ s.sle 49999#32 = true := by
  simp only [BitVec.sle, BitVec.slt, decide_eq_true_eq, decide_eq_false_iff_not] at *
  rw [toInt_50000] at hhi
  rw [toInt_0] at hneg
  rw [toInt_0, toInt_49999]; omega

/-- For `-50000 ≤ s < 50000` the wrapped index is in `[0, 49999]`. -/
theorem wrapW_range (s : BitVec 32) (hlo : (4294917296#32 : BitVec 32).sle s = true) (hhi : s.slt 50000#32 = true) :
    (0#32 : BitVec 32).sle (wrapW s) = true ∧ (wrapW s).sle 49999#32 = true := by
  unfold wrapW IntOp.cmpi IntOp.addi Scalar.select
  cases hneg : s.slt 0#32
  · simpa using range_nonneg s hhi hneg
  · simpa using range_neg s hlo hneg

/-- The range mask of the wrapped index is set. -/
theorem mask_set (s : BitVec 32) (hlo : IntOp.cmpi .sge s 4294917296#32 = 1#1) (hhi : IntOp.cmpi .slt s 50000#32 = 1#1) :
    IntOp.andi (IntOp.cmpi .sge (wrapW s) 0#32) (IntOp.cmpi .sle (wrapW s) 49999#32) = 1#1 := by
  have hlo' : (4294917296#32 : BitVec 32).sle s = true := by
    unfold IntOp.cmpi at hlo; cases h : (4294917296#32 : BitVec 32).sle s <;> simp_all
  have hhi' : s.slt 50000#32 = true := by
    unfold IntOp.cmpi at hhi; cases h : s.slt 50000#32 <;> simp_all
  obtain ⟨h0, h1⟩ := wrapW_range s hlo' hhi'
  unfold IntOp.andi IntOp.cmpi
  simp only [h0, h1]
  decide

/-- A left fold by `and` of set bits from a set bit is set. -/
theorem foldl_andi_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf => by
    refine foldl_andi_all f l _ ?_ fun n hn => hf n (List.mem_cons_of_mem _ hn)
    show IntOp.andi init (f a) = 1#1
    rw [h, hf a (List.mem_cons_self ..)]; decide

/-- An and-reduce of an array of set bits, from a set initial bit, is set at every result index. -/
theorem reduce_andi_all_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_all x _ _ (hinit _) fun n _ => hx n

end Cert.SrcRange
-- ==== Proof.Bridge.lean ====
/-
  The two results are one function of the arguments.

  Both programs compute `max ([agg, V_in] · W_w + W_b) 0` of the same aggregate `agg`: messages
  `(Vp[src] + Ep) * khop` summed into destination rows, `Vp` the node projection and `Ep` the edge projection. They
  differ in one place. The kernel takes rows with jnp's `take`, which keeps a gathered row only where the wrapped source
  index lies in `[0, 49999]` and fills the others with a NaN; the reference indexes directly. Where every source index is
  in `[-50000, 50000)` the wrapped index is in range on every edge, the mask is set everywhere, and the taken rows ARE
  the gathered rows; the rest of the host stretch is the same operations on both sides. The dense stages agree by the row
  functions: each side's is the same sum over the contracted axis, the output projection's 192-term sum split in two.
-/
import proofs.«421761_j58368605552696_2_alg».proof.Proof.KernelValue
import proofs.«421761_j58368605552696_2_alg».proof.Proof.RefValue
import proofs.«421761_j58368605552696_2_alg».proof.Proof.SrcRange
import Idealize.ShloMosaic.Lib.ValueLayout
import Idealize.ShloMosaic.Lib.Pipeline.Value

noncomputable section

namespace Cert.Bridge

open Idealize.ShloMosaic Idealize.ShloMosaic.ValueIdx
open Cert.KernelIdeal (S800000 S800000x1 S800000x96 S800000x4 S50000x96 S96x96 S96 S192x96)

/-- Every source index lies in `[-50000, 50000)` (signed compares of the words). -/
abbrev SrcOk (src : IVec S800000 32) : Prop :=
  ∀ e : S800000.Idx, IntOp.cmpi .sge (src e) 4294917296#32 = 1#1 ∧ IntOp.cmpi .slt (src e) 50000#32 = 1#1

/-- The start index of edge `i 0` is the wrapped source index of that edge. -/
theorem startIdx_apply (src : IVec S800000 32) (i : S800000x1.Idx) :
    Cert.KernelIdeal.Mid.startIdx src i = Cert.SrcRange.wrapW (src (ix1 (i 0))) := by
  unfold Cert.KernelIdeal.Mid.startIdx
  rw [broadcastInDim_apply (![0] : Fin 1 → Fin 2) _ (Cert.KernelIdeal.Mid.wrapIdx src) i (ix1 (i 0)) (fun a => by
    match a with
    | ⟨0, _⟩ => rfl)]
  rfl

/-- Under the range the mask is set on every edge. -/
theorem inRange_one (src : IVec S800000 32) (h : SrcOk src) (e : S800000.Idx) :
    Cert.KernelIdeal.Mid.inRange src e = 1#1 := by
  unfold Cert.KernelIdeal.Mid.inRange
  refine Cert.SrcRange.reduce_andi_all_one _ _ _ _ (fun _ => rfl) (fun i => ?_) e
  show IntOp.andi (IntOp.cmpi .sge (Cert.KernelIdeal.Mid.startIdx src i) 0#32)
      (IntOp.cmpi .sle (Cert.KernelIdeal.Mid.startIdx src i) 49999#32) = 1#1
  rw [startIdx_apply]
  exact Cert.SrcRange.mask_set _ (h _).1 (h _).2

/-- Under the range jnp's `take` keeps every gathered row. -/
theorem taken_eq_gathered (Vp : FVec Ideal S50000x96 .f32) (src : IVec S800000 32) (h : SrcOk src) :
    Cert.KernelIdeal.Mid.taken (F := Ideal) Vp src = Cert.KernelIdeal.Mid.gathered Vp src := by
  funext i
  unfold Cert.KernelIdeal.Mid.taken
  rw [select_apply]
  have hm : broadcastInDim S800000x96 ![0] Cert.KernelIdeal.Gen.bcast_S800000_S800000x96_0
      (Cert.KernelIdeal.Mid.inRange src) i = 1#1 := by
    unfold broadcastInDim
    exact inRange_one src h _
  rw [hm, select_one]

-- the scatter and the gather stay folded while the two programs' records are compared field by field
attribute [local irreducible] Host.scatterAdd Host.gather in
/-- With gathered rows the kernel's host stretch is the reference's: the same operations over the same shapes. -/
theorem aggOf_gathered (Vp : FVec Ideal S50000x96 .f32) (Ep : FVec Ideal S800000x96 .f32) (ea : FVec Ideal S800000x4 .f32)
    (src dst : IVec S800000 32) :
    Cert.KernelIdeal.Mid.aggOf (F := Ideal) (Cert.KernelIdeal.Mid.gathered Vp src) Ep ea dst
      = Cert.ReferenceIdeal.RefRun.aggregate (F := Ideal) Vp Ep ea src dst := rfl

/-- Under the range the two aggregates agree. -/
theorem agg_eq (Vp : FVec Ideal S50000x96 .f32) (Ep : FVec Ideal S800000x96 .f32) (ea : FVec Ideal S800000x4 .f32)
    (src dst : IVec S800000 32) (h : SrcOk src) :
    Cert.KernelIdeal.Mid.aggK (F := Ideal) Vp Ep ea src dst
      = Cert.ReferenceIdeal.RefRun.aggregate (F := Ideal) Vp Ep ea src dst := by
  unfold Cert.KernelIdeal.Mid.aggK
  rw [taken_eq_gathered Vp src h]
  exact aggOf_gathered Vp Ep ea src dst

/-- The kernel's two slices are the upper and the lower half of `W_w`. -/
theorem upper_apply (Ww : FVec Ideal S192x96 .f32) (k q : Fin 96) :
    Cert.KernelIdeal.Mid.upper Ww (ix2 k q) = Ww (ix2 (Fin.castAdd 96 k) q) :=
  slice2_axis0_apply 0 Ww _ k q (Fin.castAdd 96 k) (by show k.val = 0 + k.val; omega)

theorem lower_apply (Ww : FVec Ideal S192x96 .f32) (k q : Fin 96) :
    Cert.KernelIdeal.Mid.lower Ww (ix2 k q) = Ww (ix2 (Fin.natAdd 96 k) q) :=
  slice2_axis0_apply 96 Ww _ k q (Fin.natAdd 96 k) rfl

/-- Under the range the kernel's result is the reference's. -/
theorem out_eq (V Vin : FVec Ideal S50000x96 .f32) (E : FVec Ideal S800000x96 .f32) (ea : FVec Ideal S800000x4 .f32)
    (src dst : IVec S800000 32) (Aw : FVec Ideal S96x96 .f32) (Ab : FVec Ideal S96 .f32) (Mw : FVec Ideal S96x96 .f32)
    (Mb : FVec Ideal S96 .f32) (Ww : FVec Ideal S192x96 .f32) (Wb : FVec Ideal S96 .f32) (h : SrcOk src) :
    Cert.KernelIdeal.KVal.out V Vin E ea src dst Aw Ab Mw Mb Ww Wb
      = Cert.ReferenceIdeal.RefRun.out (F := Ideal) V Vin E ea src dst Aw Ab Mw Mb Ww Wb := by
  unfold Cert.KernelIdeal.KVal.out Cert.ReferenceIdeal.RefRun.out
  rw [Cert.ReferenceIdeal.RefVal.node_eq, Cert.ReferenceIdeal.RefVal.edge_eq,
    Cert.ReferenceIdeal.RefVal.out_eq _ Vin Ww Wb (Cert.KernelIdeal.Mid.upper Ww) (Cert.KernelIdeal.Mid.lower Ww)
      (upper_apply Ww) (lower_apply Ww),
    agg_eq _ _ ea src dst h]

end Cert.Bridge

end
-- ==== Proof.lean ====
/-
  A message-passing layer on a graph of 50000 nodes and 800000 edges, as three pipelined kernels with host operations
  between them, against its plain reference: over the extended reals both compute
      out = max ([agg, V_in] · W_w + W_b) 0,   agg[d] = Σ_{e : dst e = d} (Vp[src e] + Ep[e]) · khop[e],
      Vp = max (leaky(V) · A_w + A_b) 0,   Ep = E · M_w + M_b,   khop = edge_attr[:, 1].
  The kernel blocks the three dense stages over rows (a change of float format is the identity here, and a product into
  a zero accumulator is the product), and splits the last product over the two halves of W_w; each dense stage is a
  row-by-row function, stated once in Proof/Spec.lean and met from both sides (Proof/Payloads.lean, the three
  Proof/*Arr.lean, Proof/RefValue.lean). Between the stages both programs run the same host operations but one: the
  kernel's row lookup fills rows whose wrapped index is out of range with a NaN where the reference reads a clamped
  row. The claim is stated where every source index is an index of the node array, `-50000 ≤ src < 50000` (negative
  indices count from the end, as the reference's indexing has it); there the mask is set on every edge and the two
  lookups agree (Proof/SrcRange.lean, Proof/PreSrc.lean, Proof/Bridge.lean). Finiteness of the float inputs is not
  used: the one law joining the two sides is the splitting of a finite sum, which holds at the infinities too.

  The frames of the kernel and of its idealization are the generated ones; the idealized kernel's run with its result
  named is Proof/KernelRun.lean over the same segments, unwound to the launch memory in Proof/KernelValue.lean; the
  reference's run is Proof/RefRun.lean. The idealization rewrote nothing, so `preserves` has nothing to state.
-/
import proofs.«421761_j58368605552696_2_alg».proof.Defs
import proofs.«421761_j58368605552696_2_alg».proof.Proof.Gen.Kernel
import proofs.«421761_j58368605552696_2_alg».proof.Proof.Gen.Kernel.Skeleton
import proofs.«421761_j58368605552696_2_alg».proof.Proof.Gen.Kernel.Launch
import proofs.«421761_j58368605552696_2_alg».proof.Proof.Gen.Kernel.Points
import proofs.«421761_j58368605552696_2_alg».proof.Proof.Gen.Kernel.Frame
import proofs.«421761_j58368605552696_2_alg».proof.Proof.Gen.KernelIdeal
import proofs.«421761_j58368605552696_2_alg».proof.Proof.Gen.KernelIdeal.Skeleton
import proofs.«421761_j58368605552696_2_alg».proof.Proof.Gen.KernelIdeal.Launch
import proofs.«421761_j58368605552696_2_alg».proof.Proof.Gen.KernelIdeal.Points
import proofs.«421761_j58368605552696_2_alg».proof.Proof.Gen.KernelIdeal.Frame
import proofs.«421761_j58368605552696_2_alg».proof.Proof.Gen.ReferenceIdeal
import proofs.«421761_j58368605552696_2_alg».proof.Proof.Gen.Pre_finite_inputs
import proofs.«421761_j58368605552696_2_alg».proof.Proof.KernelRun
import proofs.«421761_j58368605552696_2_alg».proof.Proof.KernelValue
import proofs.«421761_j58368605552696_2_alg».proof.Proof.RefRun
import proofs.«421761_j58368605552696_2_alg».proof.Proof.PreSrc
import proofs.«421761_j58368605552696_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs run from memories agreeing on the arguments, and end with the same result: the kernel's result is
    `KVal.out` of its arguments, the reference's `RefRun.out` of the same arrays, and under the source range the two are
    one function. -/
theorem algebraic : Cert.algebraic_KernelIdeal_ReferenceIdeal := by
  intro m ρ m' ρ' hpre hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KVal.result m ρ c), (h c).2⟩) (Cert.KernelIdeal.KRun.run m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11⟩ := hagree c
    rw [e0, e1, e2, e3, e4, e5, e6, e7, e8, e9, e10, e11]
    exact (Cert.Bridge.out_eq _ _ _ _ _ _ _ _ _ _ _ _
      (fun e => Cert.Pre_finite_inputs.Src.src_range _ _ _ _ _ _ _ _ _ _ _ _ (hpre c) e)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
